-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25x16x512 : Shape := ⟨3, ![25, 16, 512]⟩
abbrev S25x64x512 : Shape := ⟨3, ![25, 64, 512]⟩
abbrev S25 : Shape := ⟨1, ![25]⟩
abbrev S200x16x512 : Shape := ⟨3, ![200, 16, 512]⟩
abbrev S200x64x512 : Shape := ⟨3, ![200, 64, 512]⟩
abbrev S_ : Shape := ⟨0, ![]⟩

class Facts : Prop where
  bcast_S_S25x16x512 : S_.BroadcastsInDim S25x16x512 (![] : Fin 0 → Fin S25x16x512.rank)
  reducesTo_S25x16x512_S_d0_1_2 : S25x16x512.ReducesTo [0, 1, 2] S_
  h_S_ : 0 < S_.numel
  bcast_S_S25x64x512 : S_.BroadcastsInDim S25x64x512 (![] : Fin 0 → Fin S25x64x512.rank)
  reducesTo_S25x64x512_S_d0_1_2 : S25x64x512.ReducesTo [0, 1, 2] S_
  bcast_S_S200x16x512 : S_.BroadcastsInDim S200x16x512 (![] : Fin 0 → Fin S200x16x512.rank)
  reducesTo_S200x16x512_S_d0_1_2 : S200x16x512.ReducesTo [0, 1, 2] S_
  bcast_S_S200x64x512 : S_.BroadcastsInDim S200x64x512 (![] : Fin 0 → Fin S200x64x512.rank)
  reducesTo_S200x64x512_S_d0_1_2 : S200x64x512.ReducesTo [0, 1, 2] S_

variable [Facts]

def fn_part1 {F : FTy → Type} [FloatOps F] (main_v13 : IVec S_ 1) (main_v16 : IVec S200x64x512 1) : IVec S_ 1 :=
  let main_c_5 : IVec S_ 1 := constantI S_ 1 1#1
  let main_v17 : IVec S_ 1 := (fun x v => Host.reduce IntOp.andi x v reducesTo_S200x64x512_S_d0_1_2 h_S_) main_v16 main_c_5
  let main_v18 : IVec S_ 1 := andi main_v13 main_v17
  main_v18

def fn {F : FTy → Type} [FloatOps F] (main_arg0 : FVec F S25x16x512 .f32) (main_arg1 : FVec F S25x64x512 .f32) (main_arg2 : IVec S25 32) (main_arg3 : FVec F S200x16x512 .f32) (main_arg4 : FVec F S200x64x512 .f32) : IVec S_ 1 :=
  let main_v0 : FVec F S25x16x512 .f32 := Host.absf main_arg0
  let main_cst : FVec F S_ .f32 := constant S_ .f32 0x7F800000#32
  let main_v1 : FVec F S25x16x512 .f32 := broadcastInDim S25x16x512 ![] bcast_S_S25x16x512 main_cst
  let main_v2 : IVec S25x16x512 1 := cmpf .olt main_v0 main_v1
  let main_c : IVec S_ 1 := constantI S_ 1 1#1
  let main_v3 : IVec S_ 1 := (fun x v => Host.reduce IntOp.andi x v reducesTo_S25x16x512_S_d0_1_2 h_S_) main_v2 main_c
  let main_v4 : FVec F S25x64x512 .f32 := Host.absf main_arg1
  let main_cst_0 : FVec F S_ .f32 := constant S_ .f32 0x7F800000#32
  let main_v5 : FVec F S25x64x512 .f32 := broadcastInDim S25x64x512 ![] bcast_S_S25x64x512 main_cst_0
  let main_v6 : IVec S25x64x512 1 := cmpf .olt main_v4 main_v5
  let main_c_1 : IVec S_ 1 := constantI S_ 1 1#1
  let main_v7 : IVec S_ 1 := (fun x v => Host.reduce IntOp.andi x v reducesTo_S25x64x512_S_d0_1_2 h_S_) main_v6 main_c_1
  let main_v8 : IVec S_ 1 := andi main_v3 main_v7
  let main_v9 : FVec F S200x16x512 .f32 := Host.absf main_arg3
  let main_cst_2 : FVec F S_ .f32 := constant S_ .f32 0x7F800000#32
  let main_v10 : FVec F S200x16x512 .f32 := broadcastInDim S200x16x512 ![] bcast_S_S200x16x512 main_cst_2
  let main_v11 : IVec S200x16x512 1 := cmpf .olt main_v9 main_v10
  let main_c_3 : IVec S_ 1 := constantI S_ 1 1#1
  let main_v12 : IVec S_ 1 := (fun x v => Host.reduce IntOp.andi x v reducesTo_S200x16x512_S_d0_1_2 h_S_) main_v11 main_c_3
  let main_v13 : IVec S_ 1 := andi main_v8 main_v12
  let main_v14 : FVec F S200x64x512 .f32 := Host.absf main_arg4
  let main_cst_4 : FVec F S_ .f32 := constant S_ .f32 0x7F800000#32
  let main_v15 : FVec F S200x64x512 .f32 := broadcastInDim S200x64x512 ![] bcast_S_S200x64x512 main_cst_4
  let main_v16 : IVec S200x64x512 1 := cmpf .olt main_v14 main_v15
  fn_part1 (F := F) main_v13 main_v16
-- ==== Kernel.lean ====
abbrev S25x16x512 : Shape := ⟨3, ![25, 16, 512]⟩
abbrev S25x64x512 : Shape := ⟨3, ![25, 64, 512]⟩
abbrev S25 : Shape := ⟨1, ![25]⟩
abbrev S200x16x512 : Shape := ⟨3, ![200, 16, 512]⟩
abbrev S200x64x512 : Shape := ⟨3, ![200, 64, 512]⟩
abbrev S25x80x512 : Shape := ⟨3, ![25, 80, 512]⟩
abbrev S200x80x512 : Shape := ⟨3, ![200, 80, 512]⟩
abbrev S200x25 : Shape := ⟨2, ![200, 25]⟩
abbrev S8x80x512 : Shape := ⟨3, ![8, 80, 512]⟩
abbrev S8x25 : Shape := ⟨2, ![8, 25]⟩
abbrev S25x80 : Shape := ⟨2, ![25, 80]⟩
abbrev S25x80x1 : Shape := ⟨3, ![25, 80, 1]⟩
abbrev S8x80 : Shape := ⟨2, ![8, 80]⟩
abbrev S8x80x1 : Shape := ⟨3, ![8, 80, 1]⟩
abbrev S2000x512 : Shape := ⟨2, ![2000, 512]⟩
abbrev S640x512 : Shape := ⟨2, ![640, 512]⟩
abbrev S512x640 : Shape := ⟨2, ![512, 640]⟩
abbrev S2000x640 : Shape := ⟨2, ![2000, 640]⟩
abbrev S2000x8x80 : Shape := ⟨3, ![2000, 8, 80]⟩
abbrev S25x80x8x80 : Shape := ⟨4, ![25, 80, 8, 80]⟩
abbrev S25x80x8 : Shape := ⟨3, ![25, 80, 8]⟩
abbrev S25x8 : Shape := ⟨2, ![25, 8]⟩
abbrev S25x1 : Shape := ⟨2, ![25, 1]⟩
abbrev S1x5 : Shape := ⟨2, ![1, 5]⟩
abbrev S25x5 : Shape := ⟨2, ![25, 5]⟩
abbrev S_ : Shape := ⟨0, ![]⟩
abbrev S5 : Shape := ⟨1, ![5]⟩
abbrev S200x5 : Shape := ⟨2, ![200, 5]⟩

abbrev nBuf : Space → Nat
  | .hbm => 21
  | .vmem => 5
  | .smem => 0
  | _ => 0

abbrev bufTy : (tb : Table) → Fin (tcTables nBuf tb) → BufTy
  | .hbm, ⟨0, _⟩ => ⟨S25x16x512, .f32⟩
  | .hbm, ⟨1, _⟩ => ⟨S25x64x512, .f32⟩
  | .hbm, ⟨2, _⟩ => ⟨S25, .i32⟩
  | .hbm, ⟨3, _⟩ => ⟨S200x16x512, .f32⟩
  | .hbm, ⟨4, _⟩ => ⟨S200x64x512, .f32⟩
  | .hbm, ⟨5, _⟩ => ⟨S25x80x512, .f32⟩
  | .hbm, ⟨6, _⟩ => ⟨S200x80x512, .f32⟩
  | .hbm, ⟨7, _⟩ => ⟨S200x25, .f32⟩
  | .hbm, ⟨8, _⟩ => ⟨S25x1, .i32⟩
  | .hbm, ⟨9, _⟩ => ⟨S1x5, .i32⟩
  | .hbm, ⟨10, _⟩ => ⟨S25x5, .i32⟩
  | .hbm, ⟨11, _⟩ => ⟨S25x5, .i32⟩
  | .hbm, ⟨12, _⟩ => ⟨S25x5, .i1⟩
  | .hbm, ⟨13, _⟩ => ⟨S25x5, .f32⟩
  | .hbm, ⟨14, _⟩ => ⟨S_, .f32⟩
  | .hbm, ⟨15, _⟩ => ⟨S5, .f32⟩
  | .hbm, ⟨16, _⟩ => ⟨S200x5, .f32⟩
  | .hbm, ⟨17, _⟩ => ⟨S1x5, .f32⟩
  | .hbm, ⟨18, _⟩ => ⟨S200x5, .f32⟩
  | .hbm, ⟨19, _⟩ => ⟨S200x5, .f32⟩
  | .hbm, ⟨20, _⟩ => ⟨S200x5, .f32⟩
  | .local _ .vmem, ⟨0, _⟩ => ⟨S25x80x512, .f32⟩
  | .local _ .vmem, ⟨1, _⟩ => ⟨S8x80x512, .f32⟩
  | .local _ .vmem, ⟨2, _⟩ => ⟨S8x80x512, .f32⟩
  | .local _ .vmem, ⟨3, _⟩ => ⟨S8x25, .f32⟩
  | .local _ .vmem, ⟨4, _⟩ => ⟨S8x25, .f32⟩
  | _, _ => ⟨S25x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S25x80x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x80x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S25x16x512_S25x64x512_S25x80x512_d1 : Shape.Concatenates [S25x16x512, S25x64x512] S25x80x512 1
  concatenates_S200x16x512_S200x64x512_S200x80x512_d1 : Shape.Concatenates [S200x16x512, S200x64x512] S200x80x512 1
  inb_S25x80x512_S25x80x512_0_0_0 : ∀ a, (![0, 0, 0] : Fin 3 → Nat) a + S25x80x512.size a ≤ S25x80x512.size a
  h_S25x80x512 : 0 < S25x80x512.numel
  shapeCasts_S25x80x512_S25x80x512 : S25x80x512.ShapeCasts S25x80x512
  inb_S8x80x512_S8x80x512_0_0_0 : ∀ a, (![0, 0, 0] : Fin 3 → Nat) a + S8x80x512.size a ≤ S8x80x512.size a
  h_S8x80x512 : 0 < S8x80x512.numel
  shapeCasts_S8x80x512_S8x80x512 : S8x80x512.ShapeCasts S8x80x512
  reduces_S25x80x512_S25x80 : S25x80x512.Reduces [2] S25x80
  shapeCasts_S25x80_S25x80x1 : S25x80.ShapeCasts S25x80x1
  broadcasts_S25x80x1_S25x80x512 : S25x80x1.Broadcasts S25x80x512
  reduces_S8x80x512_S8x80 : S8x80x512.Reduces [2] S8x80
  shapeCasts_S8x80_S8x80x1 : S8x80.ShapeCasts S8x80x1
  broadcasts_S8x80x1_S8x80x512 : S8x80x1.Broadcasts S8x80x512
  bitsLt_bf16_f32 : FTy.bits .bf16 < FTy.bits .f32
  shapeCasts_S25x80x512_S2000x512 : S25x80x512.ShapeCasts S2000x512
  shapeCasts_S8x80x512_S640x512 : S8x80x512.ShapeCasts S640x512
  transposes_S640x512_p1_0_S512x640 : S640x512.Transposes [1, 0] S512x640
  shapeCasts_S2000x640_S2000x8x80 : S2000x640.ShapeCasts S2000x8x80
  shapeCasts_S2000x8x80_S25x80x8x80 : S2000x8x80.ShapeCasts S25x80x8x80
  reduces_S25x80x8x80_S25x80x8 : S25x80x8x80.Reduces [3] S25x80x8
  reduces_S25x80x8_S25x8 : S25x80x8.Reduces [1] S25x8
  transposes_S25x8_p1_0_S8x25 : S25x8.Transposes [1, 0] S8x25
  inb_S8x25_S8x25_0_0 : ∀ a, (![0, 0] : Fin 2 → Nat) a + S8x25.size a ≤ S8x25.size a
  h_S8x25 : 0 < S8x25.numel
  bcast_S25_S25x1_0 : S25.BroadcastsInDim S25x1 (![0] : Fin 1 → Fin S25x1.rank)
  bcast_S25x1_S25x5_0_1 : S25x1.BroadcastsInDim S25x5 (![0, 1] : Fin 2 → Fin S25x5.rank)
  bcast_S1x5_S25x5_0_1 : S1x5.BroadcastsInDim S25x5 (![0, 1] : Fin 2 → Fin S25x5.rank)
  reducesTo_S25x5_S5_d0 : S25x5.ReducesTo [0] S5
  h_S_ : 0 < S_.numel
  bcast_S5_S1x5_1 : S5.BroadcastsInDim S1x5 (![1] : Fin 1 → Fin S1x5.rank)
  bcast_S1x5_S200x5_0_1 : S1x5.BroadcastsInDim S200x5 (![0, 1] : Fin 2 → Fin S200x5.rank)
  dot_S2000x512_S512x640_S2000x640_1_0_0_1_n_n_wf : DotDims.WF S2000x512 S512x640 S2000x640 [1] [0] [0] [1] [] []
  dot_S200x25_S25x5_S200x5_1_0_0_1_n_n_wf : DotDims.WF S200x25 S25x5 S200x5 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S25x80x512.size a ≤ S25x80x512.size a
  hwx0_0 : ∀ i : grid0.Coords, EltTy.bits .f32 = 32 ∨ (Rect.block (s := S25x80x512) S25x80x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x80x512.size a ≤ S200x80x512.size a
  hwx0_1 : ∀ i : grid0.Coords, EltTy.bits .f32 = 32 ∨ (Rect.block (s := S200x80x512) S8x80x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x25.size a ≤ S200x25.size a
  hwx0_2 : ∀ i : grid0.Coords, EltTy.bits .f32 = 32 ∨ (Rect.block (s := S200x25) S8x25.size (cc0_transform_2 i) (hinb0_2 i)).WholeWords (EltTy.packing .f32)

variable [Facts₀]

def dot_S2000x512_S512x640_S2000x640_1_0_0_1_n_n : DotDims S2000x512 S512x640 S2000x640 where
  lhsContracting := [1]
  rhsContracting := [0]
  lhsNonContracting := [0]
  rhsNonContracting := [1]
  lhsBatch := []
  rhsBatch := []
  wf := dot_S2000x512_S512x640_S2000x640_1_0_0_1_n_n_wf
def dot_S200x25_S25x5_S200x5_1_0_0_1_n_n : DotDims S200x25 S25x5 S200x5 where
  lhsContracting := [1]
  rhsContracting := [0]
  lhsNonContracting := [0]
  rhsNonContracting := [1]
  lhsBatch := []
  rhsBatch := []
  wf := dot_S200x25_S25x5_S200x5_1_0_0_1_n_n_wf

abbrev win0_0 : Pipeline.Window sig grid0 :=
  Pipeline.Window.ofSpec (Memref.whole main_v0) S25x80x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x80x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x25.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S25x16x512 : Shape := ⟨3, ![25, 16, 512]⟩
abbrev S25x64x512 : Shape := ⟨3, ![25, 64, 512]⟩
abbrev S25 : Shape := ⟨1, ![25]⟩
abbrev S200x16x512 : Shape := ⟨3, ![200, 16, 512]⟩
abbrev S200x64x512 : Shape := ⟨3, ![200, 64, 512]⟩
abbrev S25x80x512 : Shape := ⟨3, ![25, 80, 512]⟩
abbrev S200x80x512 : Shape := ⟨3, ![200, 80, 512]⟩
abbrev S2000x512 : Shape := ⟨2, ![2000, 512]⟩
abbrev S_ : Shape := ⟨0, ![]⟩
abbrev S2000 : Shape := ⟨1, ![2000]⟩
abbrev S2000x1 : Shape := ⟨2, ![2000, 1]⟩
abbrev S16000x512 : Shape := ⟨2, ![16000, 512]⟩
abbrev S16000 : Shape := ⟨1, ![16000]⟩
abbrev S16000x1 : Shape := ⟨2, ![16000, 1]⟩
abbrev S512x16000 : Shape := ⟨2, ![512, 16000]⟩
abbrev S2000x16000 : Shape := ⟨2, ![2000, 16000]⟩
abbrev S25x80x200x80 : Shape := ⟨4, ![25, 80, 200, 80]⟩
abbrev S25x200x80x80 : Shape := ⟨4, ![25, 200, 80, 80]⟩
abbrev S25x200 : Shape := ⟨2, ![25, 200]⟩
abbrev S5 : Shape := ⟨1, ![5]⟩
abbrev S25x1 : Shape := ⟨2, ![25, 1]⟩
abbrev S5x200 : Shape := ⟨2, ![5, 200]⟩
abbrev S5x1 : Shape := ⟨2, ![5, 1]⟩
abbrev S200x5 : Shape := ⟨2, ![200, 5]⟩

abbrev nBuf : Space → Nat
  | .hbm => 57
  | .vmem => 0
  | .smem => 0
  | _ => 0

abbrev bufTy : (tb : Table) → Fin (tcTables nBuf tb) → BufTy
  | .hbm, ⟨0, _⟩ => ⟨S25x16x512, .f32⟩
  | .hbm, ⟨1, _⟩ => ⟨S25x64x512, .f32⟩
  | .hbm, ⟨2, _⟩ => ⟨S25, .i32⟩
  | .hbm, ⟨3, _⟩ => ⟨S200x16x512, .f32⟩
  | .hbm, ⟨4, _⟩ => ⟨S200x64x512, .f32⟩
  | .hbm, ⟨5, _⟩ => ⟨S25x80x512, .f32⟩
  | .hbm, ⟨6, _⟩ => ⟨S200x80x512, .f32⟩
  | .hbm, ⟨7, _⟩ => ⟨S2000x512, .f32⟩
  | .hbm, ⟨8, _⟩ => ⟨S2000x512, .f32⟩
  | .hbm, ⟨9, _⟩ => ⟨S_, .f32⟩
  | .hbm, ⟨10, _⟩ => ⟨S2000, .f32⟩
  | .hbm, ⟨11, _⟩ => ⟨S2000x1, .f32⟩
  | .hbm, ⟨12, _⟩ => ⟨S2000x1, .f32⟩
  | .hbm, ⟨13, _⟩ => ⟨S_, .f32⟩
  | .hbm, ⟨14, _⟩ => ⟨S2000x1, .f32⟩
  | .hbm, ⟨15, _⟩ => ⟨S2000x1, .f32⟩
  | .hbm, ⟨16, _⟩ => ⟨S2000x512, .f32⟩
  | .hbm, ⟨17, _⟩ => ⟨S2000x512, .f32⟩
  | .hbm, ⟨18, _⟩ => ⟨S16000x512, .f32⟩
  | .hbm, ⟨19, _⟩ => ⟨S16000x512, .f32⟩
  | .hbm, ⟨20, _⟩ => ⟨S_, .f32⟩
  | .hbm, ⟨21, _⟩ => ⟨S16000, .f32⟩
  | .hbm, ⟨22, _⟩ => ⟨S16000x1, .f32⟩
  | .hbm, ⟨23, _⟩ => ⟨S16000x1, .f32⟩
  | .hbm, ⟨24, _⟩ => ⟨S_, .f32⟩
  | .hbm, ⟨25, _⟩ => ⟨S16000x1, .f32⟩
  | .hbm, ⟨26, _⟩ => ⟨S16000x1, .f32⟩
  | .hbm, ⟨27, _⟩ => ⟨S16000x512, .f32⟩
  | .hbm, ⟨28, _⟩ => ⟨S16000x512, .f32⟩
  | .hbm, ⟨29, _⟩ => ⟨S512x16000, .f32⟩
  | .hbm, ⟨30, _⟩ => ⟨S2000x16000, .f32⟩
  | .hbm, ⟨31, _⟩ => ⟨S25x80x200x80, .f32⟩
  | .hbm, ⟨32, _⟩ => ⟨S25x200x80x80, .f32⟩
  | .hbm, ⟨33, _⟩ => ⟨S_, .f32⟩
  | .hbm, ⟨34, _⟩ => ⟨S25x200x80x80, .f32⟩
  | .hbm, ⟨35, _⟩ => ⟨S25x200x80x80, .f32⟩
  | .hbm, ⟨36, _⟩ => ⟨S25x200x80x80, .f32⟩
  | .hbm, ⟨37, _⟩ => ⟨S_, .f32⟩
  | .hbm, ⟨38, _⟩ => ⟨S25x200, .f32⟩
  | .hbm, ⟨39, _⟩ => ⟨S_, .f32⟩
  | .hbm, ⟨40, _⟩ => ⟨S25x200, .f32⟩
  | .hbm, ⟨41, _⟩ => ⟨S25x200, .f32⟩
  | .hbm, ⟨42, _⟩ => ⟨S_, .f32⟩
  | .hbm, ⟨43, _⟩ => ⟨S25, .f32⟩
  | .hbm, ⟨44, _⟩ => ⟨S_, .f32⟩
  | .hbm, ⟨45, _⟩ => ⟨S5, .f32⟩
  | .hbm, ⟨46, _⟩ => ⟨S25x1, .i32⟩
  | .hbm, ⟨47, _⟩ => ⟨S5, .f32⟩
  | .hbm, ⟨48, _⟩ => ⟨S_, .f32⟩
  | .hbm, ⟨49, _⟩ => ⟨S5x200, .f32⟩
  | .hbm, ⟨50, _⟩ => ⟨S25x1, .i32⟩
  | .hbm, ⟨51, _⟩ => ⟨S5x200, .f32⟩
  | .hbm, ⟨52, _⟩ => ⟨S5x1, .f32⟩
  | .hbm, ⟨53, _⟩ => ⟨S5x200, .f32⟩
  | .hbm, ⟨54, _⟩ => ⟨S5x200, .f32⟩
  | .hbm, ⟨55, _⟩ => ⟨S200x5, .f32⟩
  | .hbm, ⟨56, _⟩ => ⟨S200x5, .f32⟩
  | _, _ => ⟨S25x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  concatenates_S25x16x512_S25x64x512_S25x80x512_d1 : Shape.Concatenates [S25x16x512, S25x64x512] S25x80x512 1
  concatenates_S200x16x512_S200x64x512_S200x80x512_d1 : Shape.Concatenates [S200x16x512, S200x64x512] S200x80x512 1
  shapeCasts_S25x80x512_S2000x512 : S25x80x512.ShapeCasts S2000x512
  reducesTo_S2000x512_S2000_d1 : S2000x512.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x512_0_1 : S2000x1.BroadcastsInDim S2000x512 (![0, 1] : Fin 2 → Fin S2000x512.rank)
  shapeCasts_S200x80x512_S16000x512 : S200x80x512.ShapeCasts S16000x512
  reducesTo_S16000x512_S16000_d1 : S16000x512.ReducesTo [1] S16000
  bcast_S16000_S16000x1_0 : S16000.BroadcastsInDim S16000x1 (![0] : Fin 1 → Fin S16000x1.rank)
  bcast_S_S16000x1 : S_.BroadcastsInDim S16000x1 (![] : Fin 0 → Fin S16000x1.rank)
  bcast_S16000x1_S16000x512_0_1 : S16000x1.BroadcastsInDim S16000x512 (![0, 1] : Fin 2 → Fin S16000x512.rank)
  transposes_S16000x512_S512x16000_1_0 : S16000x512.Transposes [1, 0] S512x16000
  shapeCasts_S2000x16000_S25x80x200x80 : S2000x16000.ShapeCasts S25x80x200x80
  transposes_S25x80x200x80_S25x200x80x80_0_2_1_3 : S25x80x200x80.Transposes [0, 2, 1, 3] S25x200x80x80
  bcast_S_S25x200x80x80 : S_.BroadcastsInDim S25x200x80x80 (![] : Fin 0 → Fin S25x200x80x80.rank)
  reducesTo_S25x200x80x80_S25x200_d2_3 : S25x200x80x80.ReducesTo [2, 3] S25x200
  bcast_S_S25x200 : S_.BroadcastsInDim S25x200 (![] : Fin 0 → Fin S25x200.rank)
  bcast_S_S25 : S_.BroadcastsInDim S25 (![] : Fin 0 → Fin S25.rank)
  bcast_S_S5 : S_.BroadcastsInDim S5 (![] : Fin 0 → Fin S5.rank)
  bcast_S25_S25x1_0 : S25.BroadcastsInDim S25x1 (![0] : Fin 1 → Fin S25x1.rank)
  bcast_S_S5x200 : S_.BroadcastsInDim S5x200 (![] : Fin 0 → Fin S5x200.rank)
  bcast_S5_S5x1_0 : S5.BroadcastsInDim S5x1 (![0] : Fin 1 → Fin S5x1.rank)
  bcast_S5x1_S5x200_0_1 : S5x1.BroadcastsInDim S5x200 (![0, 1] : Fin 2 → Fin S5x200.rank)
  transposes_S5x200_S200x5_1_0 : S5x200.Transposes [1, 0] S200x5
  dot_S2000x512_S512x16000_S2000x16000_1_0_0_1_n_n_wf : DotDims.WF S2000x512 S512x16000 S2000x16000 [1] [0] [0] [1] [] []
  scatter_S5_S25x1_S25_n_0_0_1_wf : ScatterDims.WF S5 S25x1 S25 [] [0] [0] 1
  scatter_S5x200_S25x1_S25x200_1_0_0_1_wf : ScatterDims.WF S5x200 S25x1 S25x200 [1] [0] [0] 1

variable [Facts₀]

def dot_S2000x512_S512x16000_S2000x16000_1_0_0_1_n_n : DotDims S2000x512 S512x16000 S2000x16000 where
  lhsContracting := [1]
  rhsContracting := [0]
  lhsNonContracting := [0]
  rhsNonContracting := [1]
  lhsBatch := []
  rhsBatch := []
  wf := dot_S2000x512_S512x16000_S2000x16000_1_0_0_1_n_n_wf
def scatter_S5_S25x1_S25_n_0_0_1 : ScatterDims S5 S25x1 S25 where
  updateWindowDims := []
  insertedWindowDims := [0]
  scatterDimsToOperandDims := [0]
  indexVectorDim := 1
  wf := scatter_S5_S25x1_S25_n_0_0_1_wf
def scatter_S5x200_S25x1_S25x200_1_0_0_1 : ScatterDims S5x200 S25x1 S25x200 where
  updateWindowDims := [1]
  insertedWindowDims := [0]
  scatterDimsToOperandDims := [0]
  indexVectorDim := 1
  wf := scatter_S5x200_S25x1_S25x200_1_0_0_1_wf

class Facts : Prop extends Facts₀ where

variable [Facts]
-- ==== Proof.Spec.lean ====
/-
  The mathematics both programs compute, stated once over the extended reals.

  Support rows S : [25, 80, 512] and query rows Q : [nq, 80, 512] (each the concatenation of a 16-row and a 64-row
  feature group). Every length-512 row is divided by its Euclidean norm clamped below at ε; the cosine of support row
  (s, f) and query row (q, g) is the dot product of the two unit rows; the distance of support item s and query item q
  is twice the squared Frobenius norm of the 80 × 80 matrix 1 − cosine; the logit of query q for class w is minus the
  mean of those distances over the support items labelled w (the sum over them divided by their number, whatever the
  number is). A label outside 0..4 belongs to no class.
-/
import Idealize.ShloMosaic.PureOps.Ideal
import Idealize.ShloMosaic.PureOps.Ideal.Laws
import Idealize.ShloMosaic.Lib.ValueIdx

noncomputable section

open scoped BigOperators

namespace Cert.CosFro

open Idealize.ShloMosaic Idealize.ShloMosaic.ValueIdx

/-- The clamp ε and the constants 1 and 2: the same f32 words in both programs. ε and 2 are never evaluated; the word of 1 is
    (it is the number 1), where the reference's class sizes, sums of that word, meet the kernel's counts of items. -/
abbrev eps : EReal := Ideal.ofBits .f32 0x2B8CBCCC#32
abbrev one : EReal := Ideal.ofBits .f32 0x3F800000#32
abbrev two : EReal := Ideal.ofBits .f32 0x40000000#32

variable {n nq : Nat}

/-- The Euclidean norm of row (a, f), clamped below at ε. -/
def clampedNorm (X : (⟨3, ![n, 80, 512]⟩ : Shape).Idx → EReal) (a : Fin n) (f : Fin 80) : EReal :=
  max (Ideal.sqrt (∑ k : Fin 512, X (ix3 a f k) * X (ix3 a f k))) eps

/-- Entry k of row (a, f) divided by the row's clamped norm. -/
def unitRow (X : (⟨3, ![n, 80, 512]⟩ : Shape).Idx → EReal) (a : Fin n) (f : Fin 80) (k : Fin 512) : EReal :=
  Ideal.div (X (ix3 a f k)) (clampedNorm X a f)

/-- The cosine of support row (s, f) and query row (q, g). -/
def cosine (S : (⟨3, ![25, 80, 512]⟩ : Shape).Idx → EReal) (Q : (⟨3, ![nq, 80, 512]⟩ : Shape).Idx → EReal)
    (s : Fin 25) (f : Fin 80) (q : Fin nq) (g : Fin 80) : EReal :=
  ∑ k : Fin 512, unitRow S s f k * unitRow Q q g k

/-- Twice the squared Frobenius norm of 1 − cosine over the 80 × 80 pairs of rows of items s and q. -/
def cumDist (S : (⟨3, ![25, 80, 512]⟩ : Shape).Idx → EReal) (Q : (⟨3, ![nq, 80, 512]⟩ : Shape).Idx → EReal)
    (s : Fin 25) (q : Fin nq) : EReal :=
  two * ∑ f : Fin 80, ∑ g : Fin 80, (one - cosine S Q s f q g) * (one - cosine S Q s f q g)

/-- Support item s carries label w: its label word, read signed, is w. -/
abbrev hasLabel (lab : (⟨1, ![25]⟩ : Shape).Idx → BitVec 32) (w : Fin 5) (s : Fin 25) : Prop :=
  (lab (ix1 s)).toInt = (w.val : Int)

/-- The sum of a per-item quantity over the support items labelled w. -/
def classSum (lab : (⟨1, ![25]⟩ : Shape).Idx → BitVec 32) (C : Fin 25 → EReal) (w : Fin 5) : EReal :=
  ∑ s ∈ Finset.univ.filter (fun s : Fin 25 => hasLabel lab w s), C s

/-- The logit of query q for class w: minus the class's summed distance over the class's size. -/
def logit (lab : (⟨1, ![25]⟩ : Shape).Idx → BitVec 32) (D : Fin 25 → Fin 200 → EReal) (q : Fin 200) (w : Fin 5) : EReal :=
  -(Ideal.div (classSum lab (fun s => D s q) w) (classSum lab (fun _ => one) w))

/-- The whole result, as one function of the two concatenated arrays and the labels. -/
def logits (S : (⟨3, ![25, 80, 512]⟩ : Shape).Idx → EReal) (Q : (⟨3, ![200, 80, 512]⟩ : Shape).Idx → EReal)
    (lab : (⟨1, ![25]⟩ : Shape).Idx → BitVec 32) : (⟨2, ![200, 5]⟩ : Shape).Idx → EReal :=
  fun i => logit lab (fun s q => cumDist S Q s q) (i 0) (i 1)

/-- A row's unit row depends on that row's entries only. -/
theorem unitRow_congr {n' : Nat} (X : (⟨3, ![n, 80, 512]⟩ : Shape).Idx → EReal) (X' : (⟨3, ![n', 80, 512]⟩ : Shape).Idx → EReal)
    (a : Fin n) (a' : Fin n') (f : Fin 80) (h : ∀ k : Fin 512, X' (ix3 a' f k) = X (ix3 a f k)) (k : Fin 512) :
    unitRow X' a' f k = unitRow X a f k := by
  unfold unitRow clampedNorm
  simp only [h]

/-- The distance of items s and q depends on the query side through item q's 80 rows only: a block of query items gives,
    at its local item, the whole array's distance at the item the block holds there. -/
theorem cumDist_congr {nq' : Nat} (S : (⟨3, ![25, 80, 512]⟩ : Shape).Idx → EReal)
    (Q : (⟨3, ![nq, 80, 512]⟩ : Shape).Idx → EReal) (Q' : (⟨3, ![nq', 80, 512]⟩ : Shape).Idx → EReal)
    (s : Fin 25) (q : Fin nq) (q' : Fin nq') (h : ∀ (g : Fin 80) (k : Fin 512), Q' (ix3 q' g k) = Q (ix3 q g k)) :
    cumDist S Q' s q' = cumDist S Q s q := by
  unfold cumDist cosine
  simp only [fun g k => unitRow_congr Q Q' q q' g (h g) k]

/-- A sum of terms each multiplied by the 0/1 indicator of a property is the sum over the items with the property:
    x · 1 = x and x · 0 = 0 for every extended real x, infinite ones included. -/
theorem sum_mul_indicator {ι : Type*} [Fintype ι] (C : ι → EReal) (p : ι → Prop) [DecidablePred p] :
    ∑ s, C s * (if p s then (1 : EReal) else 0) = ∑ s ∈ Finset.univ.filter p, C s := by
  rw [Finset.sum_filter]
  refine Finset.sum_congr rfl fun s _ => ?_
  by_cases hp : p s
  · rw [if_pos hp, if_pos hp, mul_one]
  · rw [if_neg hp, if_neg hp, mul_zero]

/-- The number of items with a property, as a sum of indicators. -/
theorem sum_indicator {ι : Type*} [Fintype ι] (c : EReal) (p : ι → Prop) [DecidablePred p] :
    ∑ s, (if p s then c else 0) = ∑ _s ∈ Finset.univ.filter p, c := by
  rw [Finset.sum_filter]

end Cert.CosFro

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KernelBody.lean ====
/-
  The kernel body's one stored value, read at an entry: entry (tq, s) of the [8, 25] block it writes is the distance of
  support item s and the block's query item tq.

  The body divides every length-512 row of the two blocks by its clamped norm, flattens the support rows to [2000, 512]
  and the query rows to [640, 512], multiplies the first by the transpose of the second, reads the [2000, 640] product
  back as [25, 80, 8, 80], and sums the squares of 1 − product over the two axes of size 80. Each layout step is read
  at explicit coordinates: row (s, f) of a block is row s · 80 + f of its flattening, and entry (s, f, q, g) of the
  unflattened product is entry (s · 80 + f, q · 80 + g) of the product.
-/
import proofs.«430563_j28071906247069_1_alg».proof.Proof.Gen.KernelIdeal.Skeleton
import proofs.«430563_j28071906247069_1_alg».proof.Proof.Spec
import proofs.«430563_j28071906247069_1_alg».proof.Proof.LibPlainDot
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen Cert.CosFro

/-! ## The row norms: a sum over the last axis, its keepdims cast, and the broadcast back along the row -/

section Rows
variable {n : Nat}

/-- Entry (a, f) of the sum of an [n, 80, 512] array over its last axis is the sum of row (a, f). -/
theorem sumRow_apply (src : FVec Ideal ⟨3, ![n, 80, 512]⟩ .f32)
    (h : (⟨3, ![n, 80, 512]⟩ : Shape).Reduces [2] ⟨2, ![n, 80]⟩) (hφ : FKind.Formats .f32)
    (hacc : (0x00000000#32 : BitVec 32) = FKind.add.neutral .f32 hφ) (a : Fin n) (f : Fin 80) :
    multiReduction .add [2] ⟨2, ![n, 80]⟩ src 0x00000000#32 h hφ hacc (ix2 a f) = ∑ k : Fin 512, src (ix3 a f k) := by
  refine (Ideal.multiReduction_add_single src _ h hφ hacc (ix2 a f)).trans ?_
  refine Finset.sum_congr rfl fun k _ => congrArg src ?_
  funext d
  match d with
  | ⟨0, _⟩ => rfl
  | ⟨1, _⟩ => rfl
  | ⟨2, _⟩ => rfl

/-- An [n, 80] array cast to [n, 80, 1] reads, at (a, f, u), the operand at (a, f). -/
theorem keepLast_apply {α : Type} (v : (⟨2, ![n, 80]⟩ : Shape).Idx → α)
    (h : (⟨2, ![n, 80]⟩ : Shape).ShapeCasts ⟨3, ![n, 80, 1]⟩) (a : Fin n) (f : Fin 80) (u : Fin 1) :
    shapeCast ⟨3, ![n, 80, 1]⟩ v h (ix3 a f u) = v (ix2 a f) :=
  shapeCast_apply v h _ _ (by
    have hu : u.val = 0 := by omega
    rw [Shape.rowMajor_val_three, Shape.rowMajor_val_two]
    show a.val * 80 + f.val = (a.val * 80 + f.val) * 1 + u.val
    omega)

/-- An [n, 80, 1] array broadcast to [n, 80, 512] reads, at (a, f, k), the operand at (a, f, 0). -/
theorem bcastLast_apply {α : Type} (v : (⟨3, ![n, 80, 1]⟩ : Shape).Idx → α)
    (h : (⟨3, ![n, 80, 1]⟩ : Shape).Broadcasts ⟨3, ![n, 80, 512]⟩) (a : Fin n) (f : Fin 80) (k : Fin 512) :
    broadcastTo ⟨3, ![n, 80, 512]⟩ v h (ix3 a f k) = v (ix3 a f (0 : Fin 1)) :=
  broadcastTo_apply v h _ _ fun d => by
    match d with
    | ⟨0, _⟩ =>
      show a.val = if n = 1 then 0 else a.val
      split
      · omega
      · rfl
    | ⟨1, _⟩ => rfl
    | ⟨2, _⟩ => rfl

/-- Entry (a, f, k) of an [n, 80, 512] block divided, as the kernel does it, by the broadcast of its rows' clamped
    norms is entry k of unit row (a, f). -/
theorem unit_apply (x : FVec Ideal ⟨3, ![n, 80, 512]⟩ .f32)
    (hr : (⟨3, ![n, 80, 512]⟩ : Shape).Reduces [2] ⟨2, ![n, 80]⟩) (hφ : FKind.Formats .f32)
    (hacc : (0x00000000#32 : BitVec 32) = FKind.add.neutral .f32 hφ)
    (hc : (⟨2, ![n, 80]⟩ : Shape).ShapeCasts ⟨3, ![n, 80, 1]⟩)
    (hb : (⟨3, ![n, 80, 1]⟩ : Shape).Broadcasts ⟨3, ![n, 80, 512]⟩) (a : Fin n) (f : Fin 80) (k : Fin 512) :
    divf x (broadcastTo ⟨3, ![n, 80, 512]⟩
        (maximumf (sqrt (shapeCast ⟨3, ![n, 80, 1]⟩ (multiReduction .add [2] ⟨2, ![n, 80]⟩ (mulf x x) 0x00000000#32 hr hφ hacc) hc))
          (broadcast ⟨3, ![n, 80, 1]⟩ (Scalar.ofBits (F := Ideal) .f32 0x2B8CBCCC#32))) hb) (ix3 a f k)
      = unitRow x a f k := by
  unfold unitRow clampedNorm
  rw [divf_apply]
  refine congrArg (Ideal.div (x (ix3 a f k))) ?_
  refine (bcastLast_apply _ hb a f k).trans ?_
  rw [maximumf_apply, broadcast_apply]
  refine congrArg₂ max (congrArg Ideal.sqrt ?_) rfl
  refine (keepLast_apply _ hc a f 0).trans ?_
  exact sumRow_apply (mulf x x) hr hφ hacc a f

/-- Row (a, f) of an [n, 80, 512] array is row a · 80 + f of its cast to [m, 512]. -/
theorem flatRows_apply {α : Type} {m : Nat} (v : (⟨3, ![n, 80, 512]⟩ : Shape).Idx → α)
    (h : (⟨3, ![n, 80, 512]⟩ : Shape).ShapeCasts ⟨2, ![m, 512]⟩) (a : Fin n) (f : Fin 80) (k : Fin 512) (r : Fin m)
    (hr : r.val = a.val * 80 + f.val) :
    shapeCast ⟨2, ![m, 512]⟩ v h (ix2 r k) = v (ix3 a f k) :=
  shapeCast_apply v h _ _ (by
    rw [Shape.rowMajor_val_three, Shape.rowMajor_val_two]
    show (a.val * 80 + f.val) * 512 + k.val = r.val * 512 + k.val
    rw [hr])

end Rows

/-! ## The product: unflattened, and read as the sum over the contraction -/

/-- Entry (s, f, q, g) of a [2000, 640] array cast to [2000, 8, 80] and then to [25, 80, 8, 80] is its entry
    (s · 80 + f, q · 80 + g). -/
theorem unflat_apply {α : Type} (v : (⟨2, ![2000, 640]⟩ : Shape).Idx → α)
    (h1 : (⟨2, ![2000, 640]⟩ : Shape).ShapeCasts ⟨3, ![2000, 8, 80]⟩)
    (h2 : (⟨3, ![2000, 8, 80]⟩ : Shape).ShapeCasts ⟨4, ![25, 80, 8, 80]⟩)
    (s : Fin 25) (f : Fin 80) (q : Fin 8) (g : Fin 80) :
    shapeCast ⟨4, ![25, 80, 8, 80]⟩ (shapeCast ⟨3, ![2000, 8, 80]⟩ v h1) h2 (ix4 s f q g)
      = v (ix2 (⟨s.val * 80 + f.val, by omega⟩ : Fin 2000) (⟨q.val * 80 + g.val, by omega⟩ : Fin 640)) := by
  refine (shapeCast_apply _ h2 (ix4 s f q g) (ix3 (⟨s.val * 80 + f.val, by omega⟩ : Fin 2000) q g) ?_).trans ?_
  · rw [Shape.rowMajor_val_three, Shape.rowMajor_val_four]
    rfl
  · refine shapeCast_apply v h1 _ _ ?_
    rw [Shape.rowMajor_val_two, Shape.rowMajor_val_three]
    show (s.val * 80 + f.val) * 640 + (q.val * 80 + g.val) = ((s.val * 80 + f.val) * 8 + q.val) * 80 + g.val
    omega

/-- Entry (s, f, q, g) of the kernel's product of the flattened support rows U with the transposed flattened query
    rows V, unflattened, is the dot product of row (s, f) of U and row (q, g) of V. -/
theorem sim_apply (U : FVec Ideal S25x80x512 .f32) (V : FVec Ideal S8x80x512 .f32)
    (hb : FTy.bits .bf16 < FTy.bits .f32)
    (c1 : S25x80x512.ShapeCasts S2000x512) (c2 : S8x80x512.ShapeCasts S640x512)
    (ht : S640x512.Transposes [1, 0] S512x640)
    (c3 : S2000x640.ShapeCasts S2000x8x80) (c4 : S2000x8x80.ShapeCasts S25x80x8x80)
    (s : Fin 25) (f : Fin 80) (q : Fin 8) (g : Fin 80) :
    shapeCast S25x80x8x80 (shapeCast S2000x8x80
        (matmul dot_S2000x512_S512x640_S2000x640_1_0_0_1_n_n none
          (shapeCast S2000x512 (truncf .bf16 U hb) c1)
          (transpose S512x640 [1, 0] (shapeCast S640x512 (truncf .bf16 V hb) c2) ht)
          (constant (F := Ideal) S2000x640 .f32 0x00000000#32)) c3) c4 (ix4 s f q g)
      = ∑ k : Fin 512, U (ix3 s f k) * V (ix3 q g k) := by
  refine (unflat_apply _ c3 c4 s f q g).trans ?_
  refine (Cert.PlainDot.matmul_zero_apply dot_S2000x512_S512x640_S2000x640_1_0_0_1_n_n rfl none _ _ _).trans ?_
  refine Finset.sum_congr rfl fun k _ => congrArg₂ (· * ·) ?_ ?_
  · exact (flatRows_apply (truncf .bf16 U hb) c1 s f k _ rfl).trans (truncf_apply U hb _)
  · refine (transpose_ix2_apply _ ht k _).trans ?_
    exact (flatRows_apply (truncf .bf16 V hb) c2 q g k _ rfl).trans (truncf_apply V hb _)

/-! ## The two sums over the axes of size 80, the factor, and the final transpose -/

/-- Entry (s, f, q) of the sum of a [25, 80, 8, 80] array over its last axis. -/
theorem sumLast_apply (src : FVec Ideal S25x80x8x80 .f32) (h : S25x80x8x80.Reduces [3] S25x80x8)
    (hφ : FKind.Formats .f32) (hacc : (0x00000000#32 : BitVec 32) = FKind.add.neutral .f32 hφ)
    (s : Fin 25) (f : Fin 80) (q : Fin 8) :
    multiReduction .add [3] S25x80x8 src 0x00000000#32 h hφ hacc (ix3 s f q) = ∑ g : Fin 80, src (ix4 s f q g) := by
  refine (Ideal.multiReduction_add_single src _ h hφ hacc (ix3 s f q)).trans ?_
  refine Finset.sum_congr rfl fun g _ => congrArg src ?_
  funext d
  match d with
  | ⟨0, _⟩ => rfl
  | ⟨1, _⟩ => rfl
  | ⟨2, _⟩ => rfl
  | ⟨3, _⟩ => rfl

/-- Entry (s, q) of the sum of a [25, 80, 8] array over its middle axis. -/
theorem sumMid_apply (src : FVec Ideal S25x80x8 .f32) (h : S25x80x8.Reduces [1] S25x8)
    (hφ : FKind.Formats .f32) (hacc : (0x00000000#32 : BitVec 32) = FKind.add.neutral .f32 hφ)
    (s : Fin 25) (q : Fin 8) :
    multiReduction .add [1] S25x8 src 0x00000000#32 h hφ hacc (ix2 s q) = ∑ f : Fin 80, src (ix3 s f q) := by
  refine (Ideal.multiReduction_add_single src _ h hφ hacc (ix2 s q)).trans ?_
  refine Finset.sum_congr rfl fun f _ => congrArg src ?_
  funext d
  match d with
  | ⟨0, _⟩ => rfl
  | ⟨1, _⟩ => rfl
  | ⟨2, _⟩ => rfl

/-- Entry (q, s) of the transpose of c times the sum of W over its two axes of size 80 is c times the double sum of
    W (s, ·, q, ·). -/
theorem dist_apply (W : FVec Ideal S25x80x8x80 .f32) (c : EReal)
    (r1 : S25x80x8x80.Reduces [3] S25x80x8) (hφ1 : FKind.Formats .f32)
    (hacc1 : (0x00000000#32 : BitVec 32) = FKind.add.neutral .f32 hφ1)
    (r2 : S25x80x8.Reduces [1] S25x8) (hφ2 : FKind.Formats .f32)
    (hacc2 : (0x00000000#32 : BitVec 32) = FKind.add.neutral .f32 hφ2)
    (ht : S25x8.Transposes [1, 0] S8x25) (q : Fin 8) (s : Fin 25) :
    transpose S8x25 [1, 0]
        (mulf (broadcast S25x8 c)
          (multiReduction .add [1] S25x8 (multiReduction .add [3] S25x80x8 W 0x00000000#32 r1 hφ1 hacc1)
            0x00000000#32 r2 hφ2 hacc2)) ht (ix2 q s)
      = c * ∑ f : Fin 80, ∑ g : Fin 80, W (ix4 s f q g) := by
  refine (transpose_ix2_apply _ ht q s).trans ?_
  rw [mulf_apply, broadcast_apply]
  refine congrArg (c * ·) ?_
  refine (sumMid_apply _ r2 hφ2 hacc2 s q).trans ?_
  exact Finset.sum_congr rfl fun f _ => sumLast_apply W r1 hφ1 hacc1 s f q

/-! ## The stored value at an entry -/

/-- Entry (tq, s) of the value the body stores is the distance of support item s and the block's query item tq: twice
    the sum, over the 80 × 80 pairs of rows, of the squared difference between 1 and the rows' cosine. -/
theorem pay_apply (x0 : Vec Ideal S25x80x512 .f32) (x1 : Vec Ideal S8x80x512 .f32) (tq : Fin 8) (s : Fin 25) :
    k0_pay1 (F := Ideal) x0 x1 (ix2 tq s) = cumDist x0 x1 s tq := by
  unfold k0_pay1 cumDist
  -- the two leading casts of a block to its own shape are the identity
  simp only [shapeCast_self]
  -- the transpose, the factor two and the two sums over the axes of size 80
  refine (dist_apply _ _ _ _ _ _ _ _ _ tq s).trans ?_
  refine congrArg (two * ·) (Finset.sum_congr rfl fun f _ => Finset.sum_congr rfl fun g _ => ?_)
  -- the square of 1 − product at (s, f, tq, g)
  rw [mulf_apply, subf_apply, broadcast_apply]
  refine congrArg (fun A : EReal => (one - A) * (one - A)) ?_
  -- the product at (s, f, tq, g) is the cosine of support row (s, f) and query row (tq, g)
  unfold cosine
  refine (sim_apply _ _ _ _ _ _ _ _ s f tq g).trans ?_
  exact Finset.sum_congr rfl fun k _ =>
    congrArg₂ (· * ·) (unit_apply x0 _ _ _ _ _ s f k) (unit_apply x1 _ _ _ _ _ tq g k)

end Cert.KernelIdeal.Body

end
-- ==== Proof.KernelArray.lean ====
/-
  From the blocks the kernel writes to the whole [200, 25] array it leaves.

  The support array is one block, the same at every grid point; grid point t holds query items 8t .. 8t+7 and writes
  rows 8t .. 8t+7 of the output. Entry (tq, s) of the block written at point t is the distance of support item s and the
  block's query item tq, which is the distance of s and query item 8t + tq of the whole query array, since a distance
  reads the query side through that one item's rows only. The 25 blocks tile the array: row r lies in the block of point r / 8.
-/
import proofs.«430563_j28071906247069_1_alg».proof.Proof.Gen.KernelIdeal.Frame
import proofs.«430563_j28071906247069_1_alg».proof.Proof.KernelBody
import proofs.«430563_j28071906247069_1_alg».proof.Proof.Spec
import Idealize.ShloMosaic.Lib.Pipeline.Value

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.CosFro

variable (m : (ℓ : Loc nD τ sig) → Buf (Elt Ideal) ℓ)

/-- The concatenated support and query arrays as the region finds them. -/
abbrev Sarr (c : Dev nD) : Vec Ideal S25x80x512 .f32 := V m c main_v0
abbrev Qarr (c : Dev nD) : Vec Ideal S200x80x512 .f32 := V m c main_v1
/-- The blocks of them the body loads at point t. -/
abbrev sblk (c : Dev nD) (t : Fin cfg0.N) : Vec Ideal S25x80x512 .f32 := iblk m c 0 t
abbrev qblk (c : Dev nD) (t : Fin cfg0.N) : Vec Ideal S8x80x512 .f32 := iblk m c 1 t

/-- The array the region leaves: at (q, s) the distance of support item s and query item q. -/
def cumT (c : Dev nD) : Vec Ideal S200x25 .f32 := fun i => cumDist (Sarr m c) (Qarr m c) (i 1) (i 0)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the support block never moves, the query and output blocks move with the point
    along their first axis only. -/
theorem idx_facts : ∀ t : Fin cfg0.N, win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The support block at any point is the whole support array. -/
theorem sblk_eq (c : Dev nD) (t : Fin cfg0.N) : sblk m c t = Sarr m c := by
  obtain ⟨a0, a1, a2, -, -, -, -, -⟩ := idx_facts t
  funext y
  show V m c main_v0 (((cfg0.win 0).blk t).view.emb y) = V m c main_v0 y
  refine congrArg _ (funext fun a => Fin.ext ?_)
  match a with
  | ⟨0, _⟩ => show win0_0.index t (0 : Fin 3) * 25 + 1 * (y 0).val = (y 0).val; omega
  | ⟨1, _⟩ => show win0_0.index t (1 : Fin 3) * 80 + 1 * (y 1).val = (y 1).val; omega
  | ⟨2, _⟩ => show win0_0.index t (2 : Fin 3) * 512 + 1 * (y 2).val = (y 2).val; omega

/-- The distance computed from the blocks at point t, at the block's entry j, is the whole array's entry there. -/
theorem cum_block (c : Dev nD) (t : Fin cfg0.N) (j : S8x25.Idx) :
    cumDist (sblk m c t) (qblk m c t) (j 1) (j 0) = cumT m c (((cfg0.win 2).blk t).view.emb j) := by
  obtain ⟨-, -, -, b0, b1, b2, o0, o1⟩ := idx_facts t
  rw [sblk_eq]
  have e1 : (((cfg0.win 2).blk t).view.emb j) 1 = j 1 :=
    Fin.ext (by show win0_2.index t (1 : Fin 2) * 25 + 1 * (j 1).val = (j 1).val; omega)
  show _ = cumDist (Sarr m c) (Qarr m c) ((((cfg0.win 2).blk t).view.emb j) 1) ((((cfg0.win 2).blk t).view.emb j) 0)
  rw [e1]
  refine cumDist_congr (Sarr m c) (Qarr m c) (qblk m c t) (j 1) _ (j 0) fun g k => ?_
  show V m c main_v1 (((cfg0.win 1).blk t).view.emb (ix3 (j 0) g k)) = V m c main_v1 (ix3 ((((cfg0.win 2).blk t).view.emb j) 0) g k)
  refine congrArg _ (funext fun a => Fin.ext ?_)
  match a with
  | ⟨0, _⟩ => show win0_1.index t (0 : Fin 3) * 8 + 1 * (j 0).val = win0_2.index t (0 : Fin 2) * 8 + 1 * (j 0).val; omega
  | ⟨1, _⟩ => show win0_1.index t (1 : Fin 3) * 80 + 1 * g.val = g.val; omega
  | ⟨2, _⟩ => show win0_1.index t (2 : Fin 3) * 512 + 1 * k.val = k.val; omega

/-- The body's stored value at the block's entry j is the whole array's entry there. -/
theorem pay_block (c : Dev nD) (t : Fin cfg0.N) (j : S8x25.Idx) :
    k0_pay1 (F := Ideal) (sblk m c t) (qblk m c t) j = cumT m c (((cfg0.win 2).blk t).view.emb j) :=
  (congrArg (k0_pay1 (F := Ideal) (sblk m c t) (qblk m c t)) (eq_ix2 j)).trans
    ((Cert.KernelIdeal.Body.pay_apply (sblk m c t) (qblk m c t) (j 0) (j 1)).trans (cum_block m c t j))

/-- What point t writes back is block t of the array of distances. -/
theorem flushed_eq (c : Dev nD) (t : Fin cfg0.N) :
    (dats m 0 c).flushed 2 t = ((cfg0.win 2).blk t).view.read (Elt Ideal) (cumT m c) := by
  show (cfg0.win 2).cut (grid0.coords t) ((dats m 0 c).after 2 t) = _
  rw [after0_2]
  unfold out0_2
  rw [View.canon_unit_zero hz2]
  simp only [View.ld_unit_zero (S := S25x80x512) hz3, View.ld_unit_zero (S := S8x80x512) hz3]
  funext j
  exact pay_block m c t j

/-- An index of the array is in point t's block iff each coordinate is in the block's range on its axis. -/
theorem mem_blk (t : Fin cfg0.N) (i : S200x25.Idx) :
    i ∈ ((cfg0.win 2).blk t).view.set ↔ ∀ a : Fin 2, win0_2.index t a * S8x25.size a ≤ (i a).val ∧ (i a).val < win0_2.index t a * S8x25.size a + S8x25.size a := by
  show i ∈ ((View.whole main_v2).slice (win0_2.rect t)).set ↔ _
  rw [View.set_slice_whole, Rect.mem_set_unit]
  exact Iff.rfl

/-- Row r of the array lies in the block of point r / 8. -/
theorem cover (i : S200x25.Idx) : ∃ t : Fin cfg0.N, (cfg0.win 2).flush t = true ∧ i ∈ ((cfg0.win 2).blk t).view.set := by
  have h0 : (i 0).val < 200 := (i 0).isLt
  have h1 : (i 1).val < 25 := (i 1).isLt
  have hN : cfg0.N = 25 := N_0
  let t0 : Fin cfg0.N := ⟨(i 0).val / 8, by rw [hN]; omega⟩
  obtain ⟨-, -, -, -, -, -, o0, o1⟩ := idx_facts t0
  have o0' : win0_2.index t0 (0 : Fin 2) = (i 0).val / 8 := o0
  refine ⟨t0, flush0_2 t0, ?_⟩
  rw [mem_blk]
  intro a
  match a with
  | ⟨0, _⟩ => show win0_2.index t0 (0 : Fin 2) * 8 ≤ (i 0).val ∧ (i 0).val < win0_2.index t0 (0 : Fin 2) * 8 + 8; omega
  | ⟨1, _⟩ => show win0_2.index t0 (1 : Fin 2) * 25 ≤ (i 1).val ∧ (i 1).val < win0_2.index t0 (1 : Fin 2) * 25 + 25; omega

/-- The output array after the run is the array of distances. -/
theorem final (c : Dev nD) : (dats m 0 c).arrAt 2 cfg0.N = cumT m c :=
  (dats m 0 c).arrAt_eq_of_cover 2 (cumT m c) (fun t _ => flushed_eq m c t) cover

end Cert.KernelIdeal.Arr

end
-- ==== Proof.KernelTail.lean ====
/-
  The kernel's last stretch, read at an entry: from the [200, 25] array of distances to the [200, 5] logits.

  The class matrix has a 1 at (s, w) when support item s's label word, compared as a signed word with w, equals w, and
  a 0 otherwise (a label outside 0..4 gives a zero row). The class sums are the product of the distance array with that
  matrix, the class sizes its column sums; a term times 1 is the term and a term times 0 is 0 for every extended real,
  so both are sums over the support items labelled w. The logit at (q, w) is minus their quotient.
-/
import proofs.«430563_j28071906247069_1_alg».proof.KernelIdeal
import proofs.«430563_j28071906247069_1_alg».proof.Proof.Gen.KernelIdeal
import proofs.«430563_j28071906247069_1_alg».proof.Proof.Spec
import proofs.«430563_j28071906247069_1_alg».proof.Proof.LibPlainDot
import Idealize.ShloMosaic.Lib.Pipeline.Value

noncomputable section

namespace Cert.KernelIdeal.Tail

open Idealize.ShloMosaic Idealize.ShloMosaic.ValueIdx Cert.KernelIdeal Cert.KernelIdeal.Facts₀ Cert.CosFro

/-- The f32 word 0x3F800000 (sign 0, exponent 127, fraction 0) is the number 1. -/
theorem one_eq : one = 1 := by
  show Ideal.ofBits .f32 0x3F800000#32 = 1
  simp [Ideal.ofBits, Ideal.ieee]
  rw [← EReal.coe_mul]
  norm_num

/-- A class number below 5, as a 32-bit word, reads back signed as itself. -/
theorem toInt_ofNat_small (w : Fin 5) : (BitVec.ofNat 32 w.val).toInt = (w.val : Int) := by
  fin_cases w <;> rfl

/-- Comparing a word for equality with class number w tests its signed value against w. -/
theorem cmpi_eq_class (x : BitVec 32) (w : Fin 5) :
    IntOp.cmpi .eq x (BitVec.ofNat 32 w.val) = if x.toInt = (w.val : Int) then 1#1 else 0#1 := by
  by_cases h : x = BitVec.ofNat 32 w.val
  · subst h
    rw [if_pos (toInt_ofNat_small w)]
    show BitVec.ofBool (BitVec.ofNat 32 w.val == BitVec.ofNat 32 w.val) = 1#1
    rw [beq_self_eq_true]; rfl
  · have hne : ¬ x.toInt = (w.val : Int) := fun hx =>
      h (BitVec.eq_of_toInt_eq (hx.trans (toInt_ofNat_small w).symm))
    rw [if_neg hne]
    show BitVec.ofBool (x == BitVec.ofNat 32 w.val) = 0#1
    rw [beq_eq_false_iff_ne.mpr h]; rfl

/-- The class matrix of the labels: the label column and the row 0..4, both spread to [25, 5], compared, as floats. -/
def onehot (lab : (⟨S25, .i32⟩ : BufTy).Contents (Elt Ideal)) : (⟨S25x5, .f32⟩ : BufTy).Contents (Elt Ideal) :=
  uitofp (F := Ideal) .f32 (cmpi .eq
    (broadcastInDim S25x5 ![0, 1] bcast_S25x1_S25x5_0_1 (broadcastInDim S25x1 ![0] bcast_S25_S25x1_0 lab))
    (broadcastInDim S25x5 ![0, 1] bcast_S1x5_S25x5_0_1 (iotaInDim S1x5 32 1)))

/-- Its entry (s, w) is 1 when item s is labelled w and 0 otherwise. -/
theorem onehot_apply (lab : (⟨S25, .i32⟩ : BufTy).Contents (Elt Ideal)) (s : Fin 25) (w : Fin 5) :
    onehot lab (ix2 s w) = if hasLabel lab w s then (1 : EReal) else 0 := by
  have hX : broadcastInDim S25x5 ![0, 1] bcast_S25x1_S25x5_0_1 (broadcastInDim S25x1 ![0] bcast_S25_S25x1_0 lab) (ix2 s w)
      = lab (ix1 s) := by
    rw [broadcastInDim_apply _ bcast_S25x1_S25x5_0_1 _ (ix2 s w) (ix2 s (0 : Fin 1)) (fun a => match a with
        | ⟨0, _⟩ => by show s.val = if (25 : Nat) = 1 then 0 else s.val; rw [if_neg (by decide)]
        | ⟨1, _⟩ => by show 0 = if (1 : Nat) = 1 then 0 else w.val; rw [if_pos rfl]),
      broadcastInDim_apply _ bcast_S25_S25x1_0 _ (ix2 s (0 : Fin 1)) (ix1 s) (fun a => match a with
        | ⟨0, _⟩ => by show s.val = if (25 : Nat) = 1 then 0 else s.val; rw [if_neg (by decide)])]
  have hY : broadcastInDim S25x5 ![0, 1] bcast_S1x5_S25x5_0_1 (iotaInDim S1x5 32 1) (ix2 s w) = BitVec.ofNat 32 w.val := by
    rw [broadcastInDim_apply _ bcast_S1x5_S25x5_0_1 _ (ix2 s w) (ix2 (0 : Fin 1) w) (fun a => match a with
        | ⟨0, _⟩ => by show 0 = if (1 : Nat) = 1 then 0 else s.val; rw [if_pos rfl]
        | ⟨1, _⟩ => by show w.val = if (5 : Nat) = 1 then 0 else w.val; rw [if_neg (by decide)])]
    rfl
  show (((IntOp.cmpi .eq
      (broadcastInDim S25x5 ![0, 1] bcast_S25x1_S25x5_0_1 (broadcastInDim S25x1 ![0] bcast_S25_S25x1_0 lab) (ix2 s w))
      (broadcastInDim S25x5 ![0, 1] bcast_S1x5_S25x5_0_1 (iotaInDim S1x5 32 1) (ix2 s w))).toNat : ℝ) : EReal) = _
  rw [hX, hY, cmpi_eq_class]
  by_cases hl : (lab (ix1 s)).toInt = (w.val : Int)
  · rw [if_pos hl, if_pos hl]; simp
  · rw [if_neg hl, if_neg hl]; simp

/-- The kernel's last stretch as one function of the distance array and the labels. -/
def tailFn (C : (⟨S200x25, .f32⟩ : BufTy).Contents (Elt Ideal)) (lab : (⟨S25, .i32⟩ : BufTy).Contents (Elt Ideal)) :
    (⟨S200x5, .f32⟩ : BufTy).Contents (Elt Ideal) :=
  Host.negf (Host.divf (Host.dotGeneral (F := Ideal) (φ₁ := .f32) (φ₂ := .f32) dot_S200x25_S25x5_S200x5_1_0_0_1_n_n none C (onehot lab))
    (broadcastInDim S200x5 ![0, 1] bcast_S1x5_S200x5_0_1 (broadcastInDim S1x5 ![1] bcast_S5_S1x5_1
      (Host.reduceAdd (onehot lab) (constant (F := Ideal) S_ .f32 0x00000000#32) reducesTo_S25x5_S5_d0 h_S_))))

/-- The product of the distance array with the class matrix, at (q, w): the distances to q summed over class w. -/
theorem classSum_apply (C : (⟨S200x25, .f32⟩ : BufTy).Contents (Elt Ideal)) (lab : (⟨S25, .i32⟩ : BufTy).Contents (Elt Ideal))
    (q : Fin 200) (w : Fin 5) :
    Host.dotGeneral (F := Ideal) (φ₁ := .f32) (φ₂ := .f32) dot_S200x25_S25x5_S200x5_1_0_0_1_n_n none C (onehot lab) (ix2 q w)
      = classSum lab (fun s => C (ix2 q s)) w := by
  show FloatOps.dotGeneral (F := Ideal) (φ₁ := .f32) (φ₂ := .f32) dot_S200x25_S25x5_S200x5_1_0_0_1_n_n none .single C (onehot lab) (ix2 q w) = _
  rw [Cert.PlainDot.dotGeneral_apply (M := 200) (K := 25) (N := 5) dot_S200x25_S25x5_S200x5_1_0_0_1_n_n rfl]
  simp only [onehot_apply]
  exact sum_mul_indicator (fun s => C (ix2 q s)) (hasLabel lab w)

/-- The class matrix's column sums, spread to [200, 5], at (q, w): the size of class w. -/
theorem classSize_apply (lab : (⟨S25, .i32⟩ : BufTy).Contents (Elt Ideal)) (q : Fin 200) (w : Fin 5) :
    broadcastInDim S200x5 ![0, 1] bcast_S1x5_S200x5_0_1 (broadcastInDim S1x5 ![1] bcast_S5_S1x5_1
      (Host.reduceAdd (onehot lab) (constant (F := Ideal) S_ .f32 0x00000000#32) reducesTo_S25x5_S5_d0 h_S_)) (ix2 q w)
      = classSum lab (fun _ => one) w := by
  rw [broadcastInDim_apply _ bcast_S1x5_S200x5_0_1 _ (ix2 q w) (ix2 (0 : Fin 1) w) (fun a => match a with
      | ⟨0, _⟩ => by show 0 = if (1 : Nat) = 1 then 0 else q.val; rw [if_pos rfl]
      | ⟨1, _⟩ => by show w.val = if (5 : Nat) = 1 then 0 else w.val; rw [if_neg (by decide)]),
    broadcastInDim_apply _ bcast_S5_S1x5_1 _ (ix2 (0 : Fin 1) w) (ix1 w) (fun a => match a with
      | ⟨0, _⟩ => by show w.val = if (5 : Nat) = 1 then 0 else w.val; rw [if_neg (by decide)])]
  show Ideal.hostReduceAdd reducesTo_S25x5_S5_d0 (onehot lab) (Ideal.ofBits .f32 0x00000000#32) (ix1 w) = _
  rw [Ideal.hostReduceAdd_single reducesTo_S25x5_S5_d0 (by decide : S25x5.Reduces [0] S5), Ideal.ofBits_zero_f32, zero_add]
  have hlift : ∀ k : Fin 25, (by decide : S25x5.Reduces [0] S5).lift (ix1 w) k = ix2 k w := fun k =>
    funext fun a => match a with | ⟨0, _⟩ => Fin.ext rfl | ⟨1, _⟩ => Fin.ext rfl
  show ∑ k : Fin 25, onehot lab ((by decide : S25x5.Reduces [0] S5).lift (ix1 w) k) = _
  simp only [hlift, onehot_apply]
  unfold classSum
  rw [one_eq]
  exact sum_indicator 1 (hasLabel lab w)

/-- The tail at (q, w) is the logit of query q for class w over the distance array read transposed. -/
theorem tail_apply (C : (⟨S200x25, .f32⟩ : BufTy).Contents (Elt Ideal)) (lab : (⟨S25, .i32⟩ : BufTy).Contents (Elt Ideal))
    (q : Fin 200) (w : Fin 5) :
    tailFn C lab (ix2 q w) = logit lab (fun s q => C (ix2 q s)) q w := by
  unfold tailFn logit
  show -(Ideal.div (Host.dotGeneral (F := Ideal) (φ₁ := .f32) (φ₂ := .f32) dot_S200x25_S25x5_S200x5_1_0_0_1_n_n none C (onehot lab) (ix2 q w))
    (broadcastInDim S200x5 ![0, 1] bcast_S1x5_S200x5_0_1 (broadcastInDim S1x5 ![1] bcast_S5_S1x5_1
      (Host.reduceAdd (onehot lab) (constant (F := Ideal) S_ .f32 0x00000000#32) reducesTo_S25x5_S5_d0 h_S_)) (ix2 q w))) = _
  rw [classSum_apply, classSize_apply]

end Cert.KernelIdeal.Tail

end
-- ==== Proof.KernelRun.lean ====
/-
  The kernel program's run, read: its result buffer ends holding the logits of the specification, as one function of
  the two concatenated arrays and the labels, and its arguments end unchanged.

  Before the region the program concatenates the two support feature groups and the two query feature groups; the
  region leaves the [200, 25] array of distances; after it, the class matrix, the class sizes, the class sums, the
  quotient and the negation run on the host over that array and the labels.
-/
import proofs.«430563_j28071906247069_1_alg».proof.Proof.Gen.KernelIdeal.Frame
import proofs.«430563_j28071906247069_1_alg».proof.Proof.KernelArray
import proofs.«430563_j28071906247069_1_alg».proof.Proof.KernelTail
import Idealize.ShloMosaic.Lib.StableHlo.Run

set_option maxRecDepth 16384

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Facts₀ Cert.KernelIdeal.Gen Cert.CosFro Cert.KernelIdeal.Arr Cert.KernelIdeal.Tail

variable (m : (ℓ : Loc nD τ sig) → Buf (Elt Ideal) ℓ) (ρ : Dev nD → PrngReg)

/-- The support and query arrays: each the concatenation of its 16-row and its 64-row feature group. -/
def Scat (c : Dev nD) : Vec Ideal S25x80x512 .f32 :=
  concatenate S25x80x512 1 [⟨S25x16x512, m ((c : Thread nD τ).loc main_arg0)⟩, ⟨S25x64x512, m ((c : Thread nD τ).loc main_arg1)⟩]
    Facts₀.concatenates_S25x16x512_S25x64x512_S25x80x512_d1
def Qcat (c : Dev nD) : Vec Ideal S200x80x512 .f32 :=
  concatenate S200x80x512 1 [⟨S200x16x512, m ((c : Thread nD τ).loc main_arg3)⟩, ⟨S200x64x512, m ((c : Thread nD τ).loc main_arg4)⟩]
    Facts₀.concatenates_S200x16x512_S200x64x512_S200x80x512_d1

/-- The region finds them in its two input arrays. -/
theorem Sarr_eq (c : Dev nD) : Sarr m c = Scat m c := by
  show StableHlo.after hostOps0 (fun b => m (c, b)) (Proc.devRef .tc main_v0) = _
  after_results
  rfl
theorem Qarr_eq (c : Dev nD) : Qarr m c = Qcat m c := by
  show StableHlo.after hostOps0 (fun b => m (c, b)) (Proc.devRef .tc main_v1) = _
  after_results
  rfl

/-- The host stretch after the region leaves, in the result buffer, its function of the region's output array and the
    labels as launched. -/
theorem tail_after (c : Dev nD) :
    Pipeline.afterTail₀ cfgs (dats m) 0 (V0 m) [hostOps1, hostOps1_1] c main_v9
      = tailFn ((dats m 0 c).arrAt 2 cfg0.N) (m ((c : Thread nD τ).loc main_arg2)) := by
  have h2 : Pipeline.withArrays spec0 c (V0 m c) (fun w => (dats m 0 c).arrAt w cfg0.N) (Proc.devRef .tc main_v2)
      = (dats m 0 c).arrAt 2 cfg0.N :=
    Pipeline.withArrays_arr spec0 launch0.win.arr_inj c _ _ 2
  have hl : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2
      (by exact (by decide : ∀ w, Pipeline.arrRef spec0 w ≠ main_arg2))).trans (V_main_arg2 m c)
  refine Eq.trans ?_ (congrArg₂ tailFn h2 hl)
  unfold Pipeline.afterTail₀
  simp only [hostOps1, hostOps1_1, List.flatten_cons, List.flatten_nil, List.append_nil, List.cons_append, List.nil_append]
  after_results
  rfl

/-- The tail's function of the array of distances, at an entry: the logit over the arrays the region found. -/
theorem tail_logits (c : Dev nD) (i : S200x5.Idx) :
    tailFn (cumT m c) (m ((c : Thread nD τ).loc main_arg2)) i
      = logits (Sarr m c) (Qarr m c) (m ((c : Thread nD τ).loc main_arg2)) i :=
  (congrArg (tailFn (cumT m c) (m ((c : Thread nD τ).loc main_arg2))) (eq_ix2 i)).trans
    ((tail_apply (cumT m c) (m ((c : Thread nD τ).loc main_arg2)) (i 0) (i 1)).trans rfl)

/-- The result buffer after the run: the logits of the specification. -/
theorem result_eq (c : Dev nD) :
    Pipeline.afterTail₀ cfgs (dats m) 0 (V0 m) [hostOps1, hostOps1_1] c main_v9
      = logits (Scat m c) (Qcat m c) (m ((c : Thread nD τ).loc main_arg2)) := by
  rw [tail_after, Arr.final, ← Sarr_eq, ← Qarr_eq]
  funext i
  exact tail_logits m c i

/-- Every weakly fair execution of the kernel program terminates with the result buffer at the logits of the
    specification and the five arguments unchanged. -/
theorem run : θ_run defs (onTc (τ := τ) (main (F := Ideal))) ⟨m, fun _ => 0, ρ⟩ fun r => ∀ c : Dev nD,
      r.2.mem ((c.tc : Thread nD τ).loc main_v9) = logits (Scat m c) (Qcat m c) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefDist.lean ====
/-
  The reference's distance stage, read at an entry: entry (s, q) of its [25, 200] array of doubled squared Frobenius
  norms is the distance of support item s and query item q, as a function of the two concatenated arrays.

  The reference flattens the support rows to [2000, 512] and the query rows to [16000, 512]: row f of item s sits at
  s · 80 + f. Each flattened row is divided by its clamped norm, the two unit-row arrays are contracted over the 512
  entries into [2000, 16000], the result is rearranged to [25, 200, 80, 80], and (1 − cosine)² is summed over the two
  trailing axes and doubled. Reading every stage at explicit coordinates gives the distance of the specification.
-/
import proofs.«430563_j28071906247069_1_alg».proof.Proof.Gen.ReferenceIdeal.Read
import proofs.«430563_j28071906247069_1_alg».proof.Proof.Spec

noncomputable section

open scoped BigOperators

namespace Cert.ReferenceIdeal.Dist

open Idealize.ShloMosaic Idealize.ShloMosaic.ValueIdx Cert.ReferenceIdeal Cert.ReferenceIdeal.Read Cert.CosFro

/-! ## A sum over the two trailing axes of a [25, 200, 80, 80] array -/

/-- The rank-4 index set is the product of its four coordinate ranges … -/
def idxEquiv4 : (⟨4, ![25, 200, 80, 80]⟩ : Shape).Idx ≃ Fin 25 × Fin 200 × Fin 80 × Fin 80 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] (x : (⟨4, ![25, 200, 80, 80]⟩ : Shape).Idx → M) :
    ∑ i, x i = ∑ s : Fin 25, ∑ q : Fin 200, ∑ f : Fin 80, ∑ g : Fin 80, x (ix4 s q f g) := by
  rw [← Equiv.sum_comp idxEquiv4.symm x, Fintype.sum_prod_type]
  refine Finset.sum_congr rfl fun s _ => ?_
  rw [Fintype.sum_prod_type]
  refine Finset.sum_congr rfl fun q _ => ?_
  rw [Fintype.sum_prod_type]
  rfl

/-- Dropping axes 2 and 3 of the index (s, q, f, g) leaves an index whose first coordinate is s … -/
theorem drop23_val0 (h : (⟨4, ![25, 200, 80, 80]⟩ : Shape).ReducesTo [2, 3] ⟨2, ![25, 200]⟩)
    (s : Fin 25) (q : Fin 200) (f g : Fin 80) : ((h.drop (ix4 s q f g)) 0 : Nat) = s.val :=
  h.drop_apply_val_of_eq (ix4 s q f g) 0 0 (by decide) rfl

/-- … and whose second coordinate is q. -/
theorem drop23_val1 (h : (⟨4, ![25, 200, 80, 80]⟩ : Shape).ReducesTo [2, 3] ⟨2, ![25, 200]⟩)
    (s : Fin 25) (q : Fin 200) (f g : Fin 80) : ((h.drop (ix4 s q f g)) 1 : Nat) = q.val :=
  h.drop_apply_val_of_eq (ix4 s q f g) 1 1 (by decide) rfl

/-- So (s, q, f, g) drops to the index (s', q') exactly when s is s' and q is q'. -/
theorem drop23_eq_iff (h : (⟨4, ![25, 200, 80, 80]⟩ : Shape).ReducesTo [2, 3] ⟨2, ![25, 200]⟩)
    (s : Fin 25) (q : Fin 200) (f g : Fin 80) (s' : Fin 25) (q' : Fin 200) :
    h.drop (ix4 s q f g) = ix2 s' q' ↔ s = s' ∧ q = q' := by
  constructor
  · intro e
    have h0 : ((h.drop (ix4 s q f g)) 0 : Nat) = s'.val := by rw [e]
    have h1 : ((h.drop (ix4 s q f g)) 1 : Nat) = q'.val := by rw [e]
    exact ⟨Fin.ext ((drop23_val0 h s q f g).symm.trans h0), Fin.ext ((drop23_val1 h s q f g).symm.trans h1)⟩
  · rintro ⟨rfl, rfl⟩
    funext a
    match a with
    | ⟨0, _⟩ => exact Fin.ext (drop23_val0 h s q f g)
    | ⟨1, _⟩ => exact Fin.ext (drop23_val1 h s q f g)

/-- The host's float sum over axes 2 and 3 of a [25, 200, 80, 80] array, at index (s, q): the initial value plus the
    double sum of the 80 × 80 slab (s, q), row by row. -/
theorem hostReduceAdd_d23 (h : (⟨4, ![25, 200, 80, 80]⟩ : Shape).ReducesTo [2, 3] ⟨2, ![25, 200]⟩)
    (x : (⟨4, ![25, 200, 80, 80]⟩ : Shape).Idx → EReal) (init : EReal) (s : Fin 25) (q : Fin 200) :
    Ideal.hostReduceAdd h x init (ix2 s q) = init + ∑ f : Fin 80, ∑ g : Fin 80, x (ix4 s q f g) := by
  unfold Ideal.hostReduceAdd
  refine congrArg (init + ·) ?_
  rw [Finset.sum_filter]
  refine (sum_idx4 _).trans ?_
  refine (Finset.sum_eq_single s ?_ ?_).trans ?_
  · intro s' _ hs
    refine Finset.sum_eq_zero fun q' _ => Finset.sum_eq_zero fun f _ => Finset.sum_eq_zero fun g _ => ?_
    exact if_neg fun e => hs ((drop23_eq_iff h s' q' f g s q).1 e).1
  · intro hj
    exact absurd (Finset.mem_univ _) hj
  · refine (Finset.sum_eq_single q ?_ ?_).trans ?_
    · intro q' _ hq
      refine Finset.sum_eq_zero fun f _ => Finset.sum_eq_zero fun g _ => ?_
      exact if_neg fun e => hq ((drop23_eq_iff h s q' f g s q).1 e).2
    · intro hj
      exact absurd (Finset.mem_univ _) hj
    · refine Finset.sum_congr rfl fun f _ => Finset.sum_congr rfl fun g _ => ?_
      exact if_pos ((drop23_eq_iff h s q f g s q).2 ⟨rfl, rfl⟩)

/-! ## Where a row sits in the flattened arrays -/

/-- Row f of support item s is row s · 80 + f of the flattened [2000, 512] array. -/
abbrev srow (s : Fin 25) (f : Fin 80) : Fin 2000 :=
  ⟨s.val * 80 + f.val, by have := s.isLt; have := f.isLt; omega⟩

/-- Row g of query item q is row q · 80 + g of the flattened [16000, 512] array. -/
abbrev qrow (q : Fin 200) (g : Fin 80) : Fin 16000 :=
  ⟨q.val * 80 + g.val, by have := q.isLt; have := g.isLt; omega⟩

/-- Entry k of flattened support row s · 80 + f is entry (s, f, k). -/
theorem idx_v2 (s : Fin 25) (f : Fin 80) (k : Fin 512) : idx_main_v2 (ix2 (srow s f) k) = ix3 s f k := by
  have hs := s.isLt; have hf := f.isLt; have hk := k.isLt
  funext a
  match a with
  | ⟨0, _⟩ => exact Fin.ext (by show ((s.val * 80 + f.val) * 512 + k.val) / 40960 = s.val; omega)
  | ⟨1, _⟩ => exact Fin.ext (by show ((s.val * 80 + f.val) * 512 + k.val) / 512 % 80 = f.val; omega)
  | ⟨2, _⟩ => exact Fin.ext (by show ((s.val * 80 + f.val) * 512 + k.val) % 512 = k.val; omega)

/-- Entry k of flattened query row q · 80 + g is entry (q, g, k). -/
theorem idx_v8 (q : Fin 200) (g : Fin 80) (k : Fin 512) : idx_main_v8 (ix2 (qrow q g) k) = ix3 q g k := by
  have hq := q.isLt; have hg := g.isLt; have hk := k.isLt
  funext a
  match a with
  | ⟨0, _⟩ => exact Fin.ext (by show ((q.val * 80 + g.val) * 512 + k.val) / 40960 = q.val; omega)
  | ⟨1, _⟩ => exact Fin.ext (by show ((q.val * 80 + g.val) * 512 + k.val) / 512 % 80 = g.val; omega)
  | ⟨2, _⟩ => exact Fin.ext (by show ((q.val * 80 + g.val) * 512 + k.val) % 512 = k.val; omega)

/-- Entry (s, q, f, g) of the rearranged cosine array is entry (s · 80 + f, q · 80 + g) of the [2000, 16000] product. -/
theorem idx_v16_v17 (s : Fin 25) (q : Fin 200) (f g : Fin 80) :
    idx_main_v16 (idx_main_v17 (ix4 s q f g)) = ix2 (srow s f) (qrow q g) := by
  have hs := s.isLt; have hq := q.isLt; have hf := f.isLt; have hg := g.isLt
  funext a
  match a with
  | ⟨0, _⟩ =>
    exact Fin.ext (by
      show (((s.val * 80 + f.val) * 200 + q.val) * 80 + g.val) / 16000 = s.val * 80 + f.val; omega)
  | ⟨1, _⟩ =>
    exact Fin.ext (by
      show (((s.val * 80 + f.val) * 200 + q.val) * 80 + g.val) % 16000 = q.val * 80 + g.val; omega)

/-- The norm column broadcast along a support row reads the column's one entry of that row … -/
theorem idx_v6 (r : Fin 2000) (k : Fin 512) : idx_main_call0_v2 (idx_main_v6 (ix2 r k)) = ix1 r := by
  funext a
  match a with
  | ⟨0, _⟩ => rfl

/-- … and the sum of squares along the row runs over the row's entries. -/
theorem idx_call0_v1 (r : Fin 2000) (k : Fin 512) : idx_main_call0_v1 (ix1 r) k = ix2 r k := by
  funext a
  match a with
  | ⟨0, _⟩ => rfl
  | ⟨1, _⟩ => rfl

/-- The same two facts for a query row. -/
theorem idx_v12 (r : Fin 16000) (k : Fin 512) : idx_main_call1_v2 (idx_main_v12 (ix2 r k)) = ix1 r := by
  funext a
  match a with
  | ⟨0, _⟩ => rfl

theorem idx_call1_v1 (r : Fin 16000) (k : Fin 512) : idx_main_call1_v1 (ix1 r) k = ix2 r k := by
  funext a
  match a with
  | ⟨0, _⟩ => rfl
  | ⟨1, _⟩ => rfl

/-- The transposed query array at (k, r) is the query array at (r, k). -/
theorem idx_v14 (k : Fin 512) (r : Fin 16000) : idx_main_v14 (ix2 k r) = ix2 r k := by
  funext a
  match a with
  | ⟨0, _⟩ => rfl
  | ⟨1, _⟩ => rfl

/-- The contraction at (r, c) pairs entry k of left row r with entry k of right column c. -/
theorem lidx_v15 (r : Fin 2000) (c : Fin 16000) (k : Fin 512) : lidx_main_v15 (ix2 r c) k = ix2 r k := by
  funext a
  match a with
  | ⟨0, _⟩ => rfl
  | ⟨1, _⟩ => rfl

theorem ridx_v15 (r : Fin 2000) (c : Fin 16000) (k : Fin 512) : ridx_main_v15 (ix2 r c) k = ix2 k c := by
  funext a
  match a with
  | ⟨0, _⟩ => rfl
  | ⟨1, _⟩ => rfl

/-! ## The stages at explicit coordinates -/

section Stages

variable (x0 : (⟨S25x16x512, .f32⟩ : BufTy).Contents (Elt Ideal)) (x1 : (⟨S25x64x512, .f32⟩ : BufTy).Contents (Elt Ideal))
  (x3 : (⟨S200x16x512, .f32⟩ : BufTy).Contents (Elt Ideal)) (x4 : (⟨S200x64x512, .f32⟩ : BufTy).Contents (Elt Ideal))

/-- The sum of squares of support row (s, f). -/
theorem sqsum_support (s : Fin 25) (f : Fin 80) :
    val_main_call0_v1 (F := Ideal) x0 x1 (ix1 (srow s f))
      = ∑ k : Fin 512, val_main_v0 (F := Ideal) x0 x1 (ix3 s f k) * val_main_v0 (F := Ideal) x0 x1 (ix3 s f k) := by
  rw [val_main_call0_v1_apply, val_main_call0_cst_apply, Ideal.ofBits_def, Ideal.ofBits_zero_f32, zero_add]
  refine Finset.sum_congr rfl fun k _ => ?_
  rw [val_main_call0_v0_apply, val_main_v2_apply, idx_call0_v1, idx_v2, Ideal.mulf_def]

/-- The clamped norm of support row (s, f), as the reference broadcasts it along the row. -/
theorem norm_support (s : Fin 25) (f : Fin 80) (k : Fin 512) :
    val_main_v6 (F := Ideal) x0 x1 (ix2 (srow s f) k) = clampedNorm (val_main_v0 (F := Ideal) x0 x1) s f := by
  rw [val_main_v6_apply, val_main_v5_apply, val_main_v3_apply, val_main_call0_v2_apply, val_main_v4_apply,
    val_main_cst_apply, idx_v6, sqsum_support, Ideal.maximumf_def, Ideal.hostUnary_sqrt_def, Ideal.ofBits_def]
  rfl

/-- (i) The reference's normalised support array at (s · 80 + f, k) is entry k of the unit row (s, f). -/
theorem unit_support (s : Fin 25) (f : Fin 80) (k : Fin 512) :
    val_main_v7 (F := Ideal) x0 x1 (ix2 (srow s f) k) = unitRow (val_main_v0 (F := Ideal) x0 x1) s f k := by
  rw [val_main_v7_apply, norm_support, val_main_v2_apply, idx_v2, Ideal.hostDivf_def]
  rfl

/-- The sum of squares of query row (q, g). -/
theorem sqsum_query (q : Fin 200) (g : Fin 80) :
    val_main_call1_v1 (F := Ideal) x3 x4 (ix1 (qrow q g))
      = ∑ k : Fin 512, val_main_v1 (F := Ideal) x3 x4 (ix3 q g k) * val_main_v1 (F := Ideal) x3 x4 (ix3 q g k) := by
  rw [val_main_call1_v1_apply, val_main_call1_cst_apply, Ideal.ofBits_def, Ideal.ofBits_zero_f32, zero_add]
  refine Finset.sum_congr rfl fun k _ => ?_
  rw [val_main_call1_v0_apply, val_main_v8_apply, idx_call1_v1, idx_v8, Ideal.mulf_def]

/-- The clamped norm of query row (q, g), as the reference broadcasts it along the row. -/
theorem norm_query (q : Fin 200) (g : Fin 80) (k : Fin 512) :
    val_main_v12 (F := Ideal) x3 x4 (ix2 (qrow q g) k) = clampedNorm (val_main_v1 (F := Ideal) x3 x4) q g := by
  rw [val_main_v12_apply, val_main_v11_apply, val_main_v9_apply, val_main_call1_v2_apply, val_main_v10_apply,
    val_main_cst_0_apply, idx_v12, sqsum_query, Ideal.maximumf_def, Ideal.hostUnary_sqrt_def, Ideal.ofBits_def]
  rfl

/-- (ii) The reference's transposed normalised query array at (k, q · 80 + g) is entry k of the unit row (q, g). -/
theorem unit_query (q : Fin 200) (g : Fin 80) (k : Fin 512) :
    val_main_v14 (F := Ideal) x3 x4 (ix2 k (qrow q g)) = unitRow (val_main_v1 (F := Ideal) x3 x4) q g k := by
  rw [val_main_v14_apply, idx_v14, val_main_v13_apply, norm_query, val_main_v8_apply, idx_v8, Ideal.hostDivf_def]
  rfl

/-- (iii) The [2000, 16000] product at (s · 80 + f, q · 80 + g) is the cosine of support row (s, f) and query row (q, g). -/
theorem cos_apply (s : Fin 25) (f : Fin 80) (q : Fin 200) (g : Fin 80) :
    val_main_v15 (F := Ideal) x0 x1 x3 x4 (ix2 (srow s f) (qrow q g))
      = cosine (val_main_v0 (F := Ideal) x0 x1) (val_main_v1 (F := Ideal) x3 x4) s f q g := by
  rw [val_main_v15_apply]
  unfold cosine
  refine Finset.sum_congr rfl fun k _ => ?_
  rw [lidx_v15, ridx_v15, unit_support, unit_query]

/-- (iv) The squared defect array at (s, q, f, g) is (1 − cosine)² of the two rows. -/
theorem sqdefect_apply (s : Fin 25) (q : Fin 200) (f g : Fin 80) :
    val_main_v20 (F := Ideal) x0 x1 x3 x4 (ix4 s q f g)
      = (one - cosine (val_main_v0 (F := Ideal) x0 x1) (val_main_v1 (F := Ideal) x3 x4) s f q g)
        * (one - cosine (val_main_v0 (F := Ideal) x0 x1) (val_main_v1 (F := Ideal) x3 x4) s f q g) := by
  rw [val_main_v20_apply, val_main_v19_apply, val_main_v18_apply, val_main_cst_1_apply, val_main_v17_apply,
    val_main_v16_apply, idx_v16_v17, cos_apply, Ideal.mulf_def, Ideal.subf_def, Ideal.ofBits_def]

/-- (v) The reference's sum over the two trailing axes at (s, q): the double sum over the rows of the two items. -/
theorem sum_apply (s : Fin 25) (q : Fin 200) :
    val_main_v21 (F := Ideal) x0 x1 x3 x4 (ix2 s q)
      = ∑ f : Fin 80, ∑ g : Fin 80, val_main_v20 (F := Ideal) x0 x1 x3 x4 (ix4 s q f g) := by
  unfold val_main_v21
  generalize val_main_v20 (F := Ideal) x0 x1 x3 x4 = y
  simp only [Host.reduceAdd, Ideal.hostReduceAdd_def]
  refine (hostReduceAdd_d23 Gen.reducesTo_S25x200x80x80_S25x200_d2_3 y _ s q).trans ?_
  rw [val_main_cst_2_apply, Ideal.ofBits_def, Ideal.ofBits_zero_f32, zero_add]

end Stages

theorem cum_apply (x0 : (⟨S25x16x512, .f32⟩ : BufTy).Contents (Elt Ideal)) (x1 : (⟨S25x64x512, .f32⟩ : BufTy).Contents (Elt Ideal))
    (x3 : (⟨S200x16x512, .f32⟩ : BufTy).Contents (Elt Ideal)) (x4 : (⟨S200x64x512, .f32⟩ : BufTy).Contents (Elt Ideal))
    (s : Fin 25) (q : Fin 200) :
    val_main_v23 (F := Ideal) x0 x1 x3 x4 (ix2 s q)
      = cumDist (val_main_v0 (F := Ideal) x0 x1) (val_main_v1 (F := Ideal) x3 x4) s q := by
  rw [val_main_v23_apply, val_main_v22_apply, val_main_cst_3_apply, sum_apply, Ideal.mulf_def, Ideal.ofBits_def]
  unfold cumDist
  refine congrArg (two * ·) ?_
  refine Finset.sum_congr rfl fun f _ => Finset.sum_congr rfl fun g _ => ?_
  exact sqdefect_apply x0 x1 x3 x4 s q f g

end Cert.ReferenceIdeal.Dist

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«430563_j28071906247069_1_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.RefTail.lean ====
/-
  The reference's last stretch, read at an entry: from its [25, 200] array of distances to the [200, 5] logits.

  The class sizes are an accumulating scatter of ones into five zeros at the label words, the class sums an
  accumulating scatter of the distance rows into a zero [5, 200] array at the same words: at class w each holds the
  sum over the support items whose label word, read signed, is w. The logit at (q, w) is minus their quotient.
-/
import proofs.«430563_j28071906247069_1_alg».proof.Proof.Gen.ReferenceIdeal.Read
import proofs.«430563_j28071906247069_1_alg».proof.Proof.Spec
import proofs.«430563_j28071906247069_1_alg».proof.Proof.LibScatter

noncomputable section

namespace Cert.ReferenceIdeal.Tail

open Idealize.ShloMosaic Idealize.ShloMosaic.ValueIdx Cert.ReferenceIdeal Cert.ReferenceIdeal.Read Cert.CosFro Cert.Gcn

/-- The label column's row e holds label word e. -/
theorem labelCol_apply (x2 : (⟨S25, .i32⟩ : BufTy).Contents (Elt Ideal)) (e : Fin 25) :
    val_main_v26 (F := Ideal) x2 (ix2 e (0 : Fin 1)) = x2 (ix1 e) := by
  rw [val_main_v26_apply]
  exact congrArg x2 (funext fun a => match a with | ⟨0, _⟩ => rfl)

theorem labelCol'_apply (x2 : (⟨S25, .i32⟩ : BufTy).Contents (Elt Ideal)) (e : Fin 25) :
    val_main_v29 (F := Ideal) x2 (ix2 e (0 : Fin 1)) = x2 (ix1 e) := by
  rw [val_main_v29_apply]
  exact congrArg x2 (funext fun a => match a with | ⟨0, _⟩ => rfl)

/-- The size of class w: the ones of the support items labelled w, summed. -/
theorem count_apply (x2 : (⟨S25, .i32⟩ : BufTy).Contents (Elt Ideal)) (w : Fin 5) :
    val_main_v27 (F := Ideal) x2 (ix1 w) = classSum x2 (fun _ => one) w := by
  unfold val_main_v27
  show Ideal.hostScatterAdd (vecScatterDims 5 25 Facts₀.scatter_S5_S25x1_S25_n_0_0_1_wf) _ _ _ (ix1 w) = _
  rw [scatterAddVec_apply, val_main_v25_apply, val_main_cst_5_apply]
  simp only [Ideal.ofBits_def, Ideal.ofBits_zero_f32, zero_add]
  unfold classSum
  refine Finset.sum_congr (Finset.filter_congr fun e _ => by rw [labelCol_apply]) fun e _ => ?_
  rw [val_main_v24_apply, val_main_cst_4_apply]
  rfl

/-- The summed distance of class w to query q. -/
theorem sum_apply (x0 : (⟨S25x16x512, .f32⟩ : BufTy).Contents (Elt Ideal)) (x1 : (⟨S25x64x512, .f32⟩ : BufTy).Contents (Elt Ideal))
    (x2 : (⟨S25, .i32⟩ : BufTy).Contents (Elt Ideal))
    (x3 : (⟨S200x16x512, .f32⟩ : BufTy).Contents (Elt Ideal)) (x4 : (⟨S200x64x512, .f32⟩ : BufTy).Contents (Elt Ideal))
    (w : Fin 5) (q : Fin 200) :
    val_main_v30 (F := Ideal) x0 x1 x2 x3 x4 (ix2 w q)
      = classSum x2 (fun s => val_main_v23 (F := Ideal) x0 x1 x3 x4 (ix2 s q)) w := by
  unfold val_main_v30
  show Ideal.hostScatterAdd (rowScatterDims 5 25 200 Facts₀.scatter_S5x200_S25x1_S25x200_1_0_0_1_wf) _ _ _ (ix2 w q) = _
  rw [scatterAddRows_apply, val_main_v28_apply, val_main_cst_6_apply]
  simp only [Ideal.ofBits_def, Ideal.ofBits_zero_f32, zero_add]
  unfold classSum
  exact Finset.sum_congr (Finset.filter_congr fun e _ => by rw [labelCol'_apply]) fun e _ => rfl

/-- The reference's result at (q, w) is the logit of query q for class w over its own distance stage. -/
theorem logit_apply (x0 : (⟨S25x16x512, .f32⟩ : BufTy).Contents (Elt Ideal)) (x1 : (⟨S25x64x512, .f32⟩ : BufTy).Contents (Elt Ideal))
    (x2 : (⟨S25, .i32⟩ : BufTy).Contents (Elt Ideal))
    (x3 : (⟨S200x16x512, .f32⟩ : BufTy).Contents (Elt Ideal)) (x4 : (⟨S200x64x512, .f32⟩ : BufTy).Contents (Elt Ideal))
    (q : Fin 200) (w : Fin 5) :
    val_main_v35 (F := Ideal) x0 x1 x2 x3 x4 (ix2 q w)
      = logit x2 (fun s q => val_main_v23 (F := Ideal) x0 x1 x3 x4 (ix2 s q)) q w := by
  have hT : idx_main_v34 (ix2 q w) = ix2 w q := funext fun a => match a with | ⟨0, _⟩ => rfl | ⟨1, _⟩ => rfl
  have hB : idx_main_v31 (idx_main_v32 (ix2 w q)) = ix1 w := funext fun a => match a with | ⟨0, _⟩ => rfl
  rw [val_main_v35_apply, val_main_v34_apply, hT, val_main_v33_apply, val_main_v32_apply, val_main_v31_apply, hB,
    sum_apply, count_apply]
  rfl

end Cert.ReferenceIdeal.Tail

end
-- ==== Proof.RefResult.lean ====
/-
  The reference's whole result: the logits of the specification, as one function of the two concatenated arrays and
  the labels.
-/
import proofs.«430563_j28071906247069_1_alg».proof.Proof.RefDist
import proofs.«430563_j28071906247069_1_alg».proof.Proof.RefTail

noncomputable section

namespace Cert.ReferenceIdeal.Result

open Idealize.ShloMosaic Idealize.ShloMosaic.ValueIdx Cert.ReferenceIdeal Cert.ReferenceIdeal.Read Cert.CosFro

/-- Entry (q, w) of the reference's result is minus the mean over class w of the distances to query q. -/
theorem result_apply (x0 : (⟨S25x16x512, .f32⟩ : BufTy).Contents (Elt Ideal)) (x1 : (⟨S25x64x512, .f32⟩ : BufTy).Contents (Elt Ideal))
    (x2 : (⟨S25, .i32⟩ : BufTy).Contents (Elt Ideal))
    (x3 : (⟨S200x16x512, .f32⟩ : BufTy).Contents (Elt Ideal)) (x4 : (⟨S200x64x512, .f32⟩ : BufTy).Contents (Elt Ideal))
    (i : S200x5.Idx) :
    val_main_v35 (F := Ideal) x0 x1 x2 x3 x4 i
      = logits (val_main_v0 (F := Ideal) x0 x1) (val_main_v1 (F := Ideal) x3 x4) x2 i :=
  (congrArg (val_main_v35 (F := Ideal) x0 x1 x2 x3 x4) (eq_ix2 i)).trans
    ((Cert.ReferenceIdeal.Tail.logit_apply x0 x1 x2 x3 x4 (i 0) (i 1)).trans (by
      simp only [Cert.ReferenceIdeal.Dist.cum_apply]
      rfl))

/-- The reference's result as a whole. -/
theorem result_eq (x0 : (⟨S25x16x512, .f32⟩ : BufTy).Contents (Elt Ideal)) (x1 : (⟨S25x64x512, .f32⟩ : BufTy).Contents (Elt Ideal))
    (x2 : (⟨S25, .i32⟩ : BufTy).Contents (Elt Ideal))
    (x3 : (⟨S200x16x512, .f32⟩ : BufTy).Contents (Elt Ideal)) (x4 : (⟨S200x64x512, .f32⟩ : BufTy).Contents (Elt Ideal)) :
    val_main_v35 (F := Ideal) x0 x1 x2 x3 x4
      = logits (val_main_v0 (F := Ideal) x0 x1) (val_main_v1 (F := Ideal) x3 x4) x2 := by
  funext i
  exact result_apply x0 x1 x2 x3 x4 i

end Cert.ReferenceIdeal.Result

end
-- ==== Proof.lean ====
/-
  The certificate's claim: both programs compute, for every query item and every class, minus the mean over the class's
  support items of twice the squared Frobenius norm of 1 − (the matrix of cosines between the item's 80 rows and the
  query's 80 rows).

  The kernel normalises the rows, multiplies a block of 8 query items against all 25 support items on the matrix unit,
  reduces (1 − cosine)² over the 80 × 80 pairs and writes a [8, 25] block of distances per grid point; the host then
  averages per class through a 0/1 class matrix. The reference normalises the flattened rows, forms the whole
  [2000, 16000] product, rearranges it, reduces, and averages per class by accumulating scatters at the label words.
  At the extended reals the two are one function of the concatenated support and query arrays and the labels: the
  sums are the same sums in another grouping, a change of float format is the identity, a product with a 0/1 indicator
  is a filtered sum, and a label outside 0..4 contributes to no class on either side. No finiteness is used.

  The frames of the two kernel programs are the generated ones; the reference's frame is its generated run with the
  result dropped; the idealization rewrote nothing, so its preservation claim is trivial.
-/
import proofs.«430563_j28071906247069_1_alg».proof.Defs
import proofs.«430563_j28071906247069_1_alg».proof.Proof.Gen.Kernel
import proofs.«430563_j28071906247069_1_alg».proof.Proof.Gen.Kernel.Skeleton
import proofs.«430563_j28071906247069_1_alg».proof.Proof.Gen.Kernel.Launch
import proofs.«430563_j28071906247069_1_alg».proof.Proof.Gen.Kernel.Points
import proofs.«430563_j28071906247069_1_alg».proof.Proof.Gen.Kernel.Frame
import proofs.«430563_j28071906247069_1_alg».proof.Proof.Gen.KernelIdeal
import proofs.«430563_j28071906247069_1_alg».proof.Proof.Gen.KernelIdeal.Skeleton
import proofs.«430563_j28071906247069_1_alg».proof.Proof.Gen.KernelIdeal.Launch
import proofs.«430563_j28071906247069_1_alg».proof.Proof.Gen.KernelIdeal.Points
import proofs.«430563_j28071906247069_1_alg».proof.Proof.Gen.KernelIdeal.Frame
import proofs.«430563_j28071906247069_1_alg».proof.Proof.Gen.ReferenceIdeal
import proofs.«430563_j28071906247069_1_alg».proof.Proof.Gen.ReferenceIdeal.Run
import proofs.«430563_j28071906247069_1_alg».proof.Proof.Gen.ReferenceIdeal.Read
import proofs.«430563_j28071906247069_1_alg».proof.Proof.Gen.Pre_finite_inputs
import proofs.«430563_j28071906247069_1_alg».proof.Proof.KernelRun
import proofs.«430563_j28071906247069_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments the two idealized programs end with the same logits: the kernel
    program's result is the specification's function of its concatenated arrays and labels, the reference's the same
    function of its own, and the arguments agree. -/
theorem algebraic : Cert.algebraic_KernelIdeal_ReferenceIdeal := by
  intro m ρ m' ρ' _ hagree
  refine ⟨fun c => Cert.CosFro.logits (Cert.KernelIdeal.Run.Scat m c) (Cert.KernelIdeal.Run.Qcat m c)
    (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Result.result_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
